-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v22)) (v2 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_v23) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_v75) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S1x10000x128 : Shape := ⟨3, ![1, 10000, 128]⟩
abbrev S320000 : Shape := ⟨1, ![320000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S384x512 : Shape := ⟨2, ![384, 512]⟩
abbrev S128x512 : Shape := ⟨2, ![128, 512]⟩
abbrev S512 : Shape := ⟨1, ![512]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S1x10000x128 : S_.BroadcastsInDim S1x10000x128 (![] : Fin 0 → Fin S1x10000x128.rank)
  reducesTo_S1x10000x128_S_d0_1_2 : S1x10000x128.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S384x512 : S_.BroadcastsInDim S384x512 (![] : Fin 0 → Fin S384x512.rank)
  reducesTo_S384x512_S_d0_1 : S384x512.ReducesTo [0, 1] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg16 : FVec F S128x64 .f32) (main_arg17 : FVec F S64 .f32) (main_v63 : IVec S_ 1) (main_v67 : IVec S_ 1) : IVec S_ 1 :=
  let main_v68 : IVec S_ 1 := andi main_v63 main_v67
  let main_v69 : FVec F S128x64 .f32 := Host.absf main_arg16
  let main_cst_26 : FVec F S_ .f32 := constant S_ .f32 0x7F800000#32
  let main_v70 : FVec F S128x64 .f32 := broadcastInDim S128x64 ![] bcast_S_S128x64 main_cst_26
  let main_v71 : IVec S128x64 1 := cmpf .olt main_v69 main_v70
  let main_c_27 : IVec S_ 1 := constantI S_ 1 1#1
  let main_v72 : IVec S_ 1 := (fun x v => Host.reduce IntOp.andi x v reducesTo_S128x64_S_d0_1 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  main_v78

def fn_part3 {F : FTy → Type} [FloatOps F] (main_arg13 : FVec F S512 .f32) (main_arg14 : FVec F S128x128 .f32) (main_arg15 : FVec F S128 .f32) (main_arg16 : FVec F S128x64 .f32) (main_arg17 : FVec F S64 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512 .f32 := Host.absf main_arg13
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_v63 main_v67

def fn_part2 {F : FTy → Type} [FloatOps F] (main_arg9 : FVec F S128 .f32) (main_arg10 : FVec F S384x512 .f32) (main_arg11 : FVec F S128x512 .f32) (main_arg12 : FVec F S512 .f32) (main_arg13 : FVec F S512 .f32) (main_arg14 : FVec F S128x128 .f32) (main_arg15 : FVec F S128 .f32) (main_arg16 : FVec F S128x64 .f32) (main_arg17 : FVec F S64 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S384x512 .f32 := Host.absf main_arg10
  let main_cst_14 : FVec F S_ .f32 := constant S_ .f32 0x7F800000#32
  let main_v40 : FVec F S384x512 .f32 := broadcastInDim S384x512 ![] bcast_S_S384x512 main_cst_14
  let main_v41 : IVec S384x512 1 := cmpf .olt main_v39 main_v40
  let main_c_15 : IVec S_ 1 := constantI S_ 1 1#1
  let main_v42 : IVec S_ 1 := (fun x v => Host.reduce IntOp.andi x v reducesTo_S384x512_S_d0_1 h_S_) main_v41 main_c_15
  let main_v43 : IVec S_ 1 := andi main_v38 main_v42
  let main_v44 : FVec F S128x512 .f32 := Host.absf main_arg11
  let main_cst_16 : FVec F S_ .f32 := constant S_ .f32 0x7F800000#32
  let main_v45 : FVec F S128x512 .f32 := broadcastInDim S128x512 ![] bcast_S_S128x512 main_cst_16
  let main_v46 : IVec S128x512 1 := cmpf .olt main_v44 main_v45
  let main_c_17 : IVec S_ 1 := constantI S_ 1 1#1
  let main_v47 : IVec S_ 1 := (fun x v => Host.reduce IntOp.andi x v reducesTo_S128x512_S_d0_1 h_S_) main_v46 main_c_17
  let main_v48 : IVec S_ 1 := andi main_v43 main_v47
  let main_v49 : FVec F S512 .f32 := Host.absf main_arg12
  let main_cst_18 : FVec F S_ .f32 := constant S_ .f32 0x7F800000#32
  let main_v50 : FVec F S512 .f32 := broadcastInDim S512 ![] bcast_S_S512 main_cst_18
  fn_part3 (F := F) main_arg13 main_arg14 main_arg15 main_arg16 main_arg17 main_v48 main_v49 main_v50

def fn_part1 {F : FTy → Type} [FloatOps F] (main_arg6 : FVec F S256x256 .f32) (main_arg7 : FVec F S256 .f32) (main_arg8 : FVec F S256x128 .f32) (main_arg9 : FVec F S128 .f32) (main_arg10 : FVec F S384x512 .f32) (main_arg11 : FVec F S128x512 .f32) (main_arg12 : FVec F S512 .f32) (main_arg13 : FVec F S512 .f32) (main_arg14 : FVec F S128x128 .f32) (main_arg15 : FVec F S128 .f32) (main_arg16 : FVec F S128x64 .f32) (main_arg17 : FVec F S64 .f32) (main_v13 : IVec S_ 1) (main_v16 : IVec S1x10000x128 1) : IVec S_ 1 :=
  let main_c_5 : IVec S_ 1 := constantI S_ 1 1#1
  let main_v17 : IVec S_ 1 := (fun x v => Host.reduce IntOp.andi x v reducesTo_S1x10000x128_S_d0_1_2 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg8
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S10000x128 .f32) (main_arg1 : FVec F S10000x128 .f32) (main_arg2 : FVec F S1x10000x128 .f32) (main_arg3 : FVec F S1x10000x128 .f32) (main_arg4 : IVec S320000 32) (main_arg5 : IVec S320000 32) (main_arg6 : FVec F S256x256 .f32) (main_arg7 : FVec F S256 .f32) (main_arg8 : FVec F S256x128 .f32) (main_arg9 : FVec F S128 .f32) (main_arg10 : FVec F S384x512 .f32) (main_arg11 : FVec F S128x512 .f32) (main_arg12 : FVec F S512 .f32) (main_arg13 : FVec F S512 .f32) (main_arg14 : FVec F S128x128 .f32) (main_arg15 : FVec F S128 .f32) (main_arg16 : FVec F S128x64 .f32) (main_arg17 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S1x10000x128 .f32 := Host.absf main_arg2
  let main_cst_2 : FVec F S_ .f32 := constant S_ .f32 0x7F800000#32
  let main_v10 : FVec F S1x10000x128 .f32 := broadcastInDim S1x10000x128 ![] bcast_S_S1x10000x128 main_cst_2
  let main_v11 : IVec S1x10000x128 1 := cmpf .olt main_v9 main_v10
  let main_c_3 : IVec S_ 1 := constantI S_ 1 1#1
  let main_v12 : IVec S_ 1 := (fun x v => Host.reduce IntOp.andi x v reducesTo_S1x10000x128_S_d0_1_2 h_S_) main_v11 main_c_3
  let main_v13 : IVec S_ 1 := andi main_v8 main_v12
  let main_v14 : FVec F S1x10000x128 .f32 := Host.absf main_arg3
  let main_cst_4 : FVec F S_ .f32 := constant S_ .f32 0x7F800000#32
  let main_v15 : FVec F S1x10000x128 .f32 := broadcastInDim S1x10000x128 ![] bcast_S_S1x10000x128 main_cst_4
  let main_v16 : IVec S1x10000x128 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S10000x128 : Shape := ⟨2, ![10000, 128]⟩
abbrev S1x10000x128 : Shape := ⟨3, ![1, 10000, 128]⟩
abbrev S320000 : Shape := ⟨1, ![320000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S384x512 : Shape := ⟨2, ![384, 512]⟩
abbrev S128x512 : Shape := ⟨2, ![128, 512]⟩
abbrev S512 : Shape := ⟨1, ![512]⟩
abbrev S128x128 : Shape := ⟨2, ![128, 128]⟩
abbrev S128x64 : Shape := ⟨2, ![128, 64]⟩
abbrev S64 : Shape := ⟨1, ![64]⟩
abbrev S_ : Shape := ⟨0, ![]⟩
abbrev S320000x1 : Shape := ⟨2, ![320000, 1]⟩
abbrev S320000x128 : Shape := ⟨2, ![320000, 128]⟩
abbrev S320000x256 : Shape := ⟨2, ![320000, 256]⟩
abbrev S6400x256 : Shape := ⟨2, ![6400, 256]⟩
abbrev S6400x128 : Shape := ⟨2, ![6400, 128]⟩
abbrev S1x256 : Shape := ⟨2, ![1, 256]⟩
abbrev S1x128 : Shape := ⟨2, ![1, 128]⟩
abbrev S10000x64 : Shape := ⟨2, ![10000, 64]⟩
abbrev S2000x128 : Shape := ⟨2, ![2000, 128]⟩
abbrev S2000x64 : Shape := ⟨2, ![2000, 64]⟩
abbrev S2000x384 : Shape := ⟨2, ![2000, 384]⟩
abbrev S2000x512 : Shape := ⟨2, ![2000, 512]⟩
abbrev S1x512 : Shape := ⟨2, ![1, 512]⟩
abbrev S1x64 : Shape := ⟨2, ![1, 64]⟩

abbrev nBuf : Space → Nat
  | .hbm => 49
  | .vmem => 32
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S1x10000x128, .f32⟩
  | .hbm, ⟨3, _⟩ => ⟨S1x10000x128, .f32⟩
  | .hbm, ⟨4, _⟩ => ⟨S320000, .i32⟩
  | .hbm, ⟨5, _⟩ => ⟨S320000, .i32⟩
  | .hbm, ⟨6, _⟩ => ⟨S256x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S384x512, .f32⟩
  | .hbm, ⟨11, _⟩ => ⟨S128x512, .f32⟩
  | .hbm, ⟨12, _⟩ => ⟨S512, .f32⟩
  | .hbm, ⟨13, _⟩ => ⟨S512, .f32⟩
  | .hbm, ⟨14, _⟩ => ⟨S128x128, .f32⟩
  | .hbm, ⟨15, _⟩ => ⟨S128, .f32⟩
  | .hbm, ⟨16, _⟩ => ⟨S128x64, .f32⟩
  | .hbm, ⟨17, _⟩ => ⟨S64, .f32⟩
  | .hbm, ⟨18, _⟩ => ⟨S_, .i32⟩
  | .hbm, ⟨19, _⟩ => ⟨S320000, .i32⟩
  | .hbm, ⟨20, _⟩ => ⟨S320000, .i1⟩
  | .hbm, ⟨21, _⟩ => ⟨S_, .i32⟩
  | .hbm, ⟨22, _⟩ => ⟨S320000, .i32⟩
  | .hbm, ⟨23, _⟩ => ⟨S320000, .i32⟩
  | .hbm, ⟨24, _⟩ => ⟨S320000, .i32⟩
  | .hbm, ⟨25, _⟩ => ⟨S320000x1, .i32⟩
  | .hbm, ⟨26, _⟩ => ⟨S320000x128, .f32⟩
  | .hbm, ⟨27, _⟩ => ⟨S_, .i32⟩
  | .hbm, ⟨28, _⟩ => ⟨S320000, .i32⟩
  | .hbm, ⟨29, _⟩ => ⟨S320000, .i1⟩
  | .hbm, ⟨30, _⟩ => ⟨S_, .i32⟩
  | .hbm, ⟨31, _⟩ => ⟨S320000, .i32⟩
  | .hbm, ⟨32, _⟩ => ⟨S320000, .i32⟩
  | .hbm, ⟨33, _⟩ => ⟨S320000, .i32⟩
  | .hbm, ⟨34, _⟩ => ⟨S320000x1, .i32⟩
  | .hbm, ⟨35, _⟩ => ⟨S320000x128, .f32⟩
  | .hbm, ⟨36, _⟩ => ⟨S320000x256, .f32⟩
  | .hbm, ⟨37, _⟩ => ⟨S320000x128, .f32⟩
  | .hbm, ⟨38, _⟩ => ⟨S_, .f32⟩
  | .hbm, ⟨39, _⟩ => ⟨S10000x128, .f32⟩
  | .hbm, ⟨40, _⟩ => ⟨S320000x1, .i32⟩
  | .hbm, ⟨41, _⟩ => ⟨S10000x128, .f32⟩
  | .hbm, ⟨42, _⟩ => ⟨S10000x128, .f32⟩
  | .hbm, ⟨43, _⟩ => ⟨S10000x128, .f32⟩
  | .hbm, ⟨44, _⟩ => ⟨S10000x64, .f32⟩
  | .hbm, ⟨45, _⟩ => ⟨S10000x128, .f32⟩
  | .hbm, ⟨46, _⟩ => ⟨S10000x128, .f32⟩
  | .hbm, ⟨47, _⟩ => ⟨S1x10000x128, .f32⟩
  | .hbm, ⟨48, _⟩ => ⟨S1x10000x128, .f32⟩
  | .local _ .vmem, ⟨0, _⟩ => ⟨S6400x256, .f32⟩
  | .local _ .vmem, ⟨1, _⟩ => ⟨S6400x256, .f32⟩
  | .local _ .vmem, ⟨2, _⟩ => ⟨S256x256, .f32⟩
  | .local _ .vmem, ⟨3, _⟩ => ⟨S256, .f32⟩
  | .local _ .vmem, ⟨4, _⟩ => ⟨S256x128, .f32⟩
  | .local _ .vmem, ⟨5, _⟩ => ⟨S128, .f32⟩
  | .local _ .vmem, ⟨6, _⟩ => ⟨S6400x128, .f32⟩
  | .local _ .vmem, ⟨7, _⟩ => ⟨S6400x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S384x512, .f32⟩
  | .local _ .vmem, ⟨19, _⟩ => ⟨S128x512, .f32⟩
  | .local _ .vmem, ⟨20, _⟩ => ⟨S512, .f32⟩
  | .local _ .vmem, ⟨21, _⟩ => ⟨S512, .f32⟩
  | .local _ .vmem, ⟨22, _⟩ => ⟨S128x128, .f32⟩
  | .local _ .vmem, ⟨23, _⟩ => ⟨S128, .f32⟩
  | .local _ .vmem, ⟨24, _⟩ => ⟨S128x64, .f32⟩
  | .local _ .vmem, ⟨25, _⟩ => ⟨S64, .f32⟩
  | .local _ .vmem, ⟨26, _⟩ => ⟨S2000x64, .f32⟩
  | .local _ .vmem, ⟨27, _⟩ => ⟨S2000x64, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_c_1 : Ref sig .tc := ⟨.hbm, 27, rfl⟩
abbrev main_v7 : Ref sig .tc := ⟨.hbm, 28, rfl⟩
abbrev main_v8 : Ref sig .tc := ⟨.hbm, 29, rfl⟩
abbrev main_c_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21_0 : Ref sig .tc := ⟨.hbm, 44, rfl⟩
abbrev main_v21_1 : Ref sig .tc := ⟨.hbm, 45, rfl⟩
abbrev main_v21_2 : Ref sig .tc := ⟨.hbm, 46, rfl⟩
abbrev main_v22 : Ref sig .tc := ⟨.hbm, 47, rfl⟩
abbrev main_v23 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg10_0 : Ref sig .tc := ⟨.vmem, 23, rfl⟩
abbrev cc1_stg11_0 : Ref sig .tc := ⟨.vmem, 24, rfl⟩
abbrev cc1_stg12_0 : Ref sig .tc := ⟨.vmem, 25, rfl⟩
abbrev cc1_stg13_0 : Ref sig .tc := ⟨.vmem, 26, rfl⟩
abbrev cc1_stg13_1 : Ref sig .tc := ⟨.vmem, 27, rfl⟩
abbrev cc1_stg14_0 : Ref sig .tc := ⟨.vmem, 28, rfl⟩
abbrev cc1_stg14_1 : Ref sig .tc := ⟨.vmem, 29, rfl⟩
abbrev cc1_stg15_0 : Ref sig .tc := ⟨.vmem, 30, rfl⟩
abbrev cc1_stg15_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem10_0 : DmaSem sig := 23
abbrev cc1_sem11_0 : DmaSem sig := 24
abbrev cc1_sem12_0 : DmaSem sig := 25
abbrev cc1_sem13_0 : DmaSem sig := 26
abbrev cc1_sem13_1 : DmaSem sig := 27
abbrev cc1_sem14_0 : DmaSem sig := 28
abbrev cc1_sem14_1 : DmaSem sig := 29
abbrev cc1_sem15_0 : DmaSem sig := 30
abbrev cc1_sem15_1 : DmaSem sig := 31

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S6400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S384x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S128x64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S64 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S2000x64 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S2000x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S2000x128 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

class Facts₀ : Prop where
  bcast_S_S320000 : S_.BroadcastsInDim S320000 (![] : Fin 0 → Fin S320000.rank)
  bcast_S320000_S320000x1_0 : S320000.BroadcastsInDim S320000x1 (![0] : Fin 1 → Fin S320000x1.rank)
  concatenates_S320000x128_S320000x128_S320000x256_d1 : Shape.Concatenates [S320000x128, S320000x128] S320000x256 1
  inb_S6400x256_S6400x256_0_0 : ∀ a, (![0, 0] : Fin 2 → Nat) a + S6400x256.size a ≤ S6400x256.size a
  h_S6400x256 : 0 < S6400x256.numel
  shapeCasts_S6400x256_S6400x256 : S6400x256.ShapeCasts S6400x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S6400x256 : S1x256.Broadcasts S6400x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S6400x128 : S1x128.Broadcasts S6400x128
  inb_S6400x128_S6400x128_0_0 : ∀ a, (![0, 0] : Fin 2 → Nat) a + S6400x128.size a ≤ S6400x128.size a
  h_S6400x128 : 0 < S6400x128.numel
  bcast_S_S10000x128 : S_.BroadcastsInDim S10000x128 (![] : Fin 0 → Fin S10000x128.rank)
  shapeCasts_S1x10000x128_S10000x128 : S1x10000x128.ShapeCasts S10000x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  concatenates_S2000x128_S2000x128_S2000x128_S2000x384_d1 : Shape.Concatenates [S2000x128, S2000x128, S2000x128] S2000x384 1
  inb_S384x512_S384x512_0_0 : ∀ a, (![0, 0] : Fin 2 → Nat) a + S384x512.size a ≤ S384x512.size a
  h_S384x512 : 0 < S384x512.numel
  inb_S128x512_S128x512_0_0 : ∀ a, (![0, 0] : Fin 2 → Nat) a + S128x512.size a ≤ S128x512.size a
  h_S128x512 : 0 < S128x512.numel
  inb_S512_S512_0 : ∀ a, (![0] : Fin 1 → Nat) a + S512.size a ≤ S512.size a
  h_S512 : 0 < S512.numel
  shapeCasts_S512_S1x512 : S512.ShapeCasts S1x512
  broadcasts_S1x512_S2000x512 : S1x512.Broadcasts S2000x512
  slices_S2000x512_o0_0_S2000x128 : S2000x512.Slices ![0, 0] S2000x128
  slices_S2000x512_o0_128_S2000x128 : S2000x512.Slices ![0, 128] S2000x128
  slices_S2000x512_o0_256_S2000x128 : S2000x512.Slices ![0, 256] S2000x128
  slices_S2000x512_o0_384_S2000x128 : S2000x512.Slices ![0, 384] S2000x128
  inb_S128x128_S128x128_0_0 : ∀ a, (![0, 0] : Fin 2 → Nat) a + S128x128.size a ≤ S128x128.size a
  h_S128x128 : 0 < S128x128.numel
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  bcast_S10000x128_S1x10000x128_1_2 : S10000x128.BroadcastsInDim S1x10000x128 (![1, 2] : Fin 2 → Fin S1x10000x128.rank)
  gather_S10000x128_S320000x1_S320000x128_1_0_n_n_0_1_1128_wf : GatherDims.WF S10000x128 S320000x1 S320000x128 [1] [0] [] [0] [] 1 ![1, 128]
  dot_S6400x256_S256x256_S6400x256_1_0_0_1_n_n_wf : DotDims.WF S6400x256 S256x256 S6400x256 [1] [0] [0] [1] [] []
  dot_S6400x256_S256x128_S6400x128_1_0_0_1_n_n_wf : DotDims.WF S6400x256 S256x128 S6400x128 [1] [0] [0] [1] [] []
  scatter_S10000x128_S320000x1_S320000x128_1_0_0_1_wf : ScatterDims.WF S10000x128 S320000x1 S320000x128 [1] [0] [0] 1
  dot_S2000x384_S384x512_S2000x512_1_0_0_1_n_n_wf : DotDims.WF S2000x384 S384x512 S2000x512 [1] [0] [0] [1] [] []
  dot_S2000x128_S128x512_S2000x512_1_0_0_1_n_n_wf : DotDims.WF S2000x128 S128x512 S2000x512 [1] [0] [0] [1] [] []
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x256.size a ≤ S320000x256.size a
  hwx0_0 : ∀ i : grid0.Coords, EltTy.bits .f32 = 32 ∨ (Rect.block (s := S320000x256) S6400x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S6400x128.size a ≤ S320000x128.size a
  hwx0_5 : ∀ i : grid0.Coords, EltTy.bits .f32 = 32 ∨ (Rect.block (s := S320000x128) S6400x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S10000x128.size a
  hwx1_0 : ∀ i : grid1.Coords, EltTy.bits .f32 = 32 ∨ (Rect.block (s := S10000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S10000x128.size a
  hwx1_1 : ∀ i : grid1.Coords, EltTy.bits .f32 = 32 ∨ (Rect.block (s := S10000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S10000x128.size a
  hwx1_2 : ∀ i : grid1.Coords, EltTy.bits .f32 = 32 ∨ (Rect.block (s := S10000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S10000x128.size a
  hwx1_3 : ∀ i : grid1.Coords, EltTy.bits .f32 = 32 ∨ (Rect.block (s := S10000x128) S2000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S10000x128.size a
  hwx1_4 : ∀ i : grid1.Coords, EltTy.bits .f32 = 32 ∨ (Rect.block (s := S10000x128) S2000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S384x512.size a ≤ S384x512.size a
  hwx1_5 : ∀ i : grid1.Coords, EltTy.bits .f32 = 32 ∨ (Rect.block (s := S384x512) S384x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x512.size a ≤ S128x512.size a
  hwx1_6 : ∀ i : grid1.Coords, EltTy.bits .f32 = 32 ∨ (Rect.block (s := S128x512) S128x512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S512.size a ≤ S512.size a
  hwx1_7 : ∀ i : grid1.Coords, EltTy.bits .f32 = 32 ∨ (Rect.block (s := S512) S512.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S512.size a ≤ S512.size a
  hwx1_8 : ∀ i : grid1.Coords, EltTy.bits .f32 = 32 ∨ (Rect.block (s := S512) S512.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x128.size a ≤ S128x128.size a
  hwx1_9 : ∀ i : grid1.Coords, EltTy.bits .f32 = 32 ∨ (Rect.block (s := S128x128) S128x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128.size a ≤ S128.size a
  hwx1_10 : ∀ i : grid1.Coords, EltTy.bits .f32 = 32 ∨ (Rect.block (s := S128) S128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S128x64.size a ≤ S128x64.size a
  hwx1_11 : ∀ i : grid1.Coords, EltTy.bits .f32 = 32 ∨ (Rect.block (s := S128x64) S128x64.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S64.size a ≤ S64.size a
  hwx1_12 : ∀ i : grid1.Coords, EltTy.bits .f32 = 32 ∨ (Rect.block (s := S64) S64.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S2000x64.size a ≤ S10000x64.size a
  hwx1_13 : ∀ i : grid1.Coords, EltTy.bits .f32 = 32 ∨ (Rect.block (s := S10000x64) S2000x64.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S2000x128.size a ≤ S10000x128.size a
  hwx1_14 : ∀ i : grid1.Coords, EltTy.bits .f32 = 32 ∨ (Rect.block (s := S10000x128) S2000x128.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S2000x128.size a ≤ S10000x128.size a
  hwx1_15 : ∀ i : grid1.Coords, EltTy.bits .f32 = 32 ∨ (Rect.block (s := S10000x128) S2000x128.size (cc1_transform_15 i) (hinb1_15 i)).WholeWords (EltTy.packing .f32)

variable [Facts₀]

def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def dot_S6400x256_S256x256_S6400x256_1_0_0_1_n_n : DotDims S6400x256 S256x256 S6400x256 where
  lhsContracting := [1]
  rhsContracting := [0]
  lhsNonContracting := [0]
  rhsNonContracting := [1]
  lhsBatch := []
  rhsBatch := []
  wf := dot_S6400x256_S256x256_S6400x256_1_0_0_1_n_n_wf
def dot_S6400x256_S256x128_S6400x128_1_0_0_1_n_n : DotDims S6400x256 S256x128 S6400x128 where
  lhsContracting := [1]
  rhsContracting := [0]
  lhsNonContracting := [0]
  rhsNonContracting := [1]
  lhsBatch := []
  rhsBatch := []
  wf := dot_S6400x256_S256x128_S6400x128_1_0_0_1_n_n_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def dot_S2000x384_S384x512_S2000x512_1_0_0_1_n_n : DotDims S2000x384 S384x512 S2000x512 where
  lhsContracting := [1]
  rhsContracting := [0]
  lhsNonContracting := [0]
  rhsNonContracting := [1]
  lhsBatch := []
  rhsBatch := []
  wf := dot_S2000x384_S384x512_S2000x512_1_0_0_1_n_n_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v14) S6400x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg9) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S6400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S2000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v20) S2000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S384x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg11) S128x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg12) S512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg13) S512.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg14) S128x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg15) S128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg16) S128x64.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg17) S64.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v21_0) S2000x64.size cc1_transform_13 reads1_13 true false 2 stage1_13 sem1_13
    hrank1 hreads1_13 hinb1_13 nbuf1_13 (Memref.isWhole_whole _) hwx1_13 hstage1_13

abbrev win1_14 : Pipeline.Window sig grid1 :=
  Pipeline.Window.ofSpec (Memref.whole main_v21_1) S2000x128.size cc1_transform_14 reads1_14 true false 2 stage1_14 sem1_14
    hrank1 hreads1_14 hinb1_14 nbuf1_14 (Memref.isWhole_whole _) hwx1_14 hstage1_14

abbrev win1_15 : Pipeline.Window sig grid1 :=
  Pipeline.Window.ofSpec (Memref.whole main_v21_2) S2000x128.size cc1_transform_15 reads1_15 true false 2 stage1_15 sem1_15
    hrank1 hreads1_15 hinb1_15 nbuf1_15 (Memref.isWhole_whole _) hwx1_15 hstage1_15

abbrev win1 : Fin 16 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | ⟨_ + 16, h⟩ => absurd h (Nat.not_lt.2 (Nat.le_add_left _ _))
abbrev spec1 : Fin 16 → Pipeline.WinSpec sig grid1.rank := fun w => (win1 w).toWinSpec

class Facts : Prop extends Facts₀ where

variable [Facts]
-- ==== ReferenceIdeal.lean ====
abbrev S10000x128 : Shape := ⟨2, ![10000, 128]⟩
abbrev S1x10000x128 : Shape := ⟨3, ![1, 10000, 128]⟩
abbrev S320000 : Shape := ⟨1, ![320000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S384x512 : Shape := ⟨2, ![384, 512]⟩
abbrev S128x512 : Shape := ⟨2, ![128, 512]⟩
abbrev S512 : Shape := ⟨1, ![512]⟩
abbrev S128x128 : Shape := ⟨2, ![128, 128]⟩
abbrev S128x64 : Shape := ⟨2, ![128, 64]⟩
abbrev S64 : Shape := ⟨1, ![64]⟩
abbrev S_ : Shape := ⟨0, ![]⟩
abbrev S320000x1 : Shape := ⟨2, ![320000, 1]⟩
abbrev S320000x128 : Shape := ⟨2, ![320000, 128]⟩
abbrev S320000x256 : Shape := ⟨2, ![320000, 256]⟩
abbrev S1x256 : Shape := ⟨2, ![1, 256]⟩
abbrev S1x128 : Shape := ⟨2, ![1, 128]⟩
abbrev S10000x384 : Shape := ⟨2, ![10000, 384]⟩
abbrev S10000x512 : Shape := ⟨2, ![10000, 512]⟩
abbrev S1x512 : Shape := ⟨2, ![1, 512]⟩
abbrev S10000x64 : Shape := ⟨2, ![10000, 64]⟩
abbrev S1x64 : Shape := ⟨2, ![1, 64]⟩

abbrev nBuf : Space → Nat
  | .hbm => 109
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S1x10000x128, .f32⟩
  | .hbm, ⟨3, _⟩ => ⟨S1x10000x128, .f32⟩
  | .hbm, ⟨4, _⟩ => ⟨S320000, .i32⟩
  | .hbm, ⟨5, _⟩ => ⟨S320000, .i32⟩
  | .hbm, ⟨6, _⟩ => ⟨S256x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S384x512, .f32⟩
  | .hbm, ⟨11, _⟩ => ⟨S128x512, .f32⟩
  | .hbm, ⟨12, _⟩ => ⟨S512, .f32⟩
  | .hbm, ⟨13, _⟩ => ⟨S512, .f32⟩
  | .hbm, ⟨14, _⟩ => ⟨S128x128, .f32⟩
  | .hbm, ⟨15, _⟩ => ⟨S128, .f32⟩
  | .hbm, ⟨16, _⟩ => ⟨S128x64, .f32⟩
  | .hbm, ⟨17, _⟩ => ⟨S64, .f32⟩
  | .hbm, ⟨18, _⟩ => ⟨S_, .i32⟩
  | .hbm, ⟨19, _⟩ => ⟨S320000, .i32⟩
  | .hbm, ⟨20, _⟩ => ⟨S320000, .i1⟩
  | .hbm, ⟨21, _⟩ => ⟨S_, .i32⟩
  | .hbm, ⟨22, _⟩ => ⟨S320000, .i32⟩
  | .hbm, ⟨23, _⟩ => ⟨S320000, .i32⟩
  | .hbm, ⟨24, _⟩ => ⟨S320000, .i32⟩
  | .hbm, ⟨25, _⟩ => ⟨S320000x1, .i32⟩
  | .hbm, ⟨26, _⟩ => ⟨S320000x128, .f32⟩
  | .hbm, ⟨27, _⟩ => ⟨S_, .i32⟩
  | .hbm, ⟨28, _⟩ => ⟨S320000, .i32⟩
  | .hbm, ⟨29, _⟩ => ⟨S320000, .i1⟩
  | .hbm, ⟨30, _⟩ => ⟨S_, .i32⟩
  | .hbm, ⟨31, _⟩ => ⟨S320000, .i32⟩
  | .hbm, ⟨32, _⟩ => ⟨S320000, .i32⟩
  | .hbm, ⟨33, _⟩ => ⟨S320000, .i32⟩
  | .hbm, ⟨34, _⟩ => ⟨S320000x1, .i32⟩
  | .hbm, ⟨35, _⟩ => ⟨S320000x128, .f32⟩
  | .hbm, ⟨36, _⟩ => ⟨S320000x256, .f32⟩
  | .hbm, ⟨37, _⟩ => ⟨S320000x256, .f32⟩
  | .hbm, ⟨38, _⟩ => ⟨S1x256, .f32⟩
  | .hbm, ⟨39, _⟩ => ⟨S320000x256, .f32⟩
  | .hbm, ⟨40, _⟩ => ⟨S320000x256, .f32⟩
  | .hbm, ⟨41, _⟩ => ⟨S_, .f32⟩
  | .hbm, ⟨42, _⟩ => ⟨S320000x256, .f32⟩
  | .hbm, ⟨43, _⟩ => ⟨S320000x256, .f32⟩
  | .hbm, ⟨44, _⟩ => ⟨S320000x128, .f32⟩
  | .hbm, ⟨45, _⟩ => ⟨S1x128, .f32⟩
  | .hbm, ⟨46, _⟩ => ⟨S320000x128, .f32⟩
  | .hbm, ⟨47, _⟩ => ⟨S320000x128, .f32⟩
  | .hbm, ⟨48, _⟩ => ⟨S_, .f32⟩
  | .hbm, ⟨49, _⟩ => ⟨S10000x128, .f32⟩
  | .hbm, ⟨50, _⟩ => ⟨S320000x1, .i32⟩
  | .hbm, ⟨51, _⟩ => ⟨S10000x128, .f32⟩
  | .hbm, ⟨52, _⟩ => ⟨S10000x384, .f32⟩
  | .hbm, ⟨53, _⟩ => ⟨S10000x512, .f32⟩
  | .hbm, ⟨54, _⟩ => ⟨S10000x128, .f32⟩
  | .hbm, ⟨55, _⟩ => ⟨S10000x512, .f32⟩
  | .hbm, ⟨56, _⟩ => ⟨S10000x512, .f32⟩
  | .hbm, ⟨57, _⟩ => ⟨S512, .f32⟩
  | .hbm, ⟨58, _⟩ => ⟨S1x512, .f32⟩
  | .hbm, ⟨59, _⟩ => ⟨S10000x512, .f32⟩
  | .hbm, ⟨60, _⟩ => ⟨S10000x512, .f32⟩
  | .hbm, ⟨61, _⟩ => ⟨S10000x128, .f32⟩
  | .hbm, ⟨62, _⟩ => ⟨S10000x128, .f32⟩
  | .hbm, ⟨63, _⟩ => ⟨S10000x128, .f32⟩
  | .hbm, ⟨64, _⟩ => ⟨S10000x128, .f32⟩
  | .hbm, ⟨65, _⟩ => ⟨S10000x128, .f32⟩
  | .hbm, ⟨66, _⟩ => ⟨S10000x128, .f32⟩
  | .hbm, ⟨67, _⟩ => ⟨S_, .f32⟩
  | .hbm, ⟨68, _⟩ => ⟨S10000x128, .f32⟩
  | .hbm, ⟨69, _⟩ => ⟨S10000x128, .f32⟩
  | .hbm, ⟨70, _⟩ => ⟨S_, .f32⟩
  | .hbm, ⟨71, _⟩ => ⟨S10000x128, .f32⟩
  | .hbm, ⟨72, _⟩ => ⟨S10000x128, .f32⟩
  | .hbm, ⟨73, _⟩ => ⟨S10000x128, .f32⟩
  | .hbm, ⟨74, _⟩ => ⟨S10000x128, .f32⟩
  | .hbm, ⟨75, _⟩ => ⟨S10000x128, .f32⟩
  | .hbm, ⟨76, _⟩ => ⟨S10000x128, .f32⟩
  | .hbm, ⟨77, _⟩ => ⟨S_, .f32⟩
  | .hbm, ⟨78, _⟩ => ⟨S10000x128, .f32⟩
  | .hbm, ⟨79, _⟩ => ⟨S10000x128, .f32⟩
  | .hbm, ⟨80, _⟩ => ⟨S_, .f32⟩
  | .hbm, ⟨81, _⟩ => ⟨S10000x128, .f32⟩
  | .hbm, ⟨82, _⟩ => ⟨S10000x128, .f32⟩
  | .hbm, ⟨83, _⟩ => ⟨S10000x128, .f32⟩
  | .hbm, ⟨84, _⟩ => ⟨S10000x128, .f32⟩
  | .hbm, ⟨85, _⟩ => ⟨S10000x128, .f32⟩
  | .hbm, ⟨86, _⟩ => ⟨S10000x128, .f32⟩
  | .hbm, ⟨87, _⟩ => ⟨S10000x128, .f32⟩
  | .hbm, ⟨88, _⟩ => ⟨S_, .f32⟩
  | .hbm, ⟨89, _⟩ => ⟨S10000x128, .f32⟩
  | .hbm, ⟨90, _⟩ => ⟨S10000x128, .f32⟩
  | .hbm, ⟨91, _⟩ => ⟨S_, .f32⟩
  | .hbm, ⟨92, _⟩ => ⟨S10000x128, .f32⟩
  | .hbm, ⟨93, _⟩ => ⟨S10000x128, .f32⟩
  | .hbm, ⟨94, _⟩ => ⟨S10000x128, .f32⟩
  | .hbm, ⟨95, _⟩ => ⟨S10000x128, .f32⟩
  | .hbm, ⟨96, _⟩ => ⟨S10000x128, .f32⟩
  | .hbm, ⟨97, _⟩ => ⟨S1x128, .f32⟩
  | .hbm, ⟨98, _⟩ => ⟨S10000x128, .f32⟩
  | .hbm, ⟨99, _⟩ => ⟨S10000x128, .f32⟩
  | .hbm, ⟨100, _⟩ => ⟨S_, .f32⟩
  | .hbm, ⟨101, _⟩ => ⟨S10000x128, .f32⟩
  | .hbm, ⟨102, _⟩ => ⟨S10000x128, .f32⟩
  | .hbm, ⟨103, _⟩ => ⟨S10000x64, .f32⟩
  | .hbm, ⟨104, _⟩ => ⟨S1x64, .f32⟩
  | .hbm, ⟨105, _⟩ => ⟨S10000x64, .f32⟩
  | .hbm, ⟨106, _⟩ => ⟨S10000x64, .f32⟩
  | .hbm, ⟨107, _⟩ => ⟨S1x10000x128, .f32⟩
  | .hbm, ⟨108, _⟩ => ⟨S1x10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_c_1 : Ref sig .tc := ⟨.hbm, 27, rfl⟩
abbrev main_v7 : Ref sig .tc := ⟨.hbm, 28, rfl⟩
abbrev main_v8 : Ref sig .tc := ⟨.hbm, 29, rfl⟩
abbrev main_c_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_call0_cst : Ref sig .tc := ⟨.hbm, 41, rfl⟩
abbrev main_call0_v0 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_3 : Ref sig .tc := ⟨.hbm, 67, rfl⟩
abbrev main_v42 : Ref sig .tc := ⟨.hbm, 68, rfl⟩
abbrev main_v43 : Ref sig .tc := ⟨.hbm, 69, rfl⟩
abbrev main_cst_4 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_5 : Ref sig .tc := ⟨.hbm, 77, rfl⟩
abbrev main_v50 : Ref sig .tc := ⟨.hbm, 78, rfl⟩
abbrev main_v51 : Ref sig .tc := ⟨.hbm, 79, rfl⟩
abbrev main_cst_6 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_7 : Ref sig .tc := ⟨.hbm, 88, rfl⟩
abbrev main_v59 : Ref sig .tc := ⟨.hbm, 89, rfl⟩
abbrev main_v60 : Ref sig .tc := ⟨.hbm, 90, rfl⟩
abbrev main_cst_8 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_call1_cst : Ref sig .tc := ⟨.hbm, 100, rfl⟩
abbrev main_call1_v0 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩

abbrev nD : Nat := 1
abbrev τ : Topo := Topo.v7x

variable {F : FTy → Type} [FloatOps F]

class Facts₀ : Prop where
  bcast_S_S320000 : S_.BroadcastsInDim S320000 (![] : Fin 0 → Fin S320000.rank)
  bcast_S320000_S320000x1_0 : S320000.BroadcastsInDim S320000x1 (![0] : Fin 1 → Fin S320000x1.rank)
  concatenates_S320000x128_S320000x128_S320000x256_d1 : Shape.Concatenates [S320000x128, S320000x128] S320000x256 1
  bcast_S256_S1x256_1 : S256.BroadcastsInDim S1x256 (![1] : Fin 1 → Fin S1x256.rank)
  bcast_S1x256_S320000x256_0_1 : S1x256.BroadcastsInDim S320000x256 (![0, 1] : Fin 2 → Fin S320000x256.rank)
  bcast_S_S320000x256 : S_.BroadcastsInDim S320000x256 (![] : Fin 0 → Fin S320000x256.rank)
  bcast_S128_S1x128_1 : S128.BroadcastsInDim S1x128 (![1] : Fin 1 → Fin S1x128.rank)
  bcast_S1x128_S320000x128_0_1 : S1x128.BroadcastsInDim S320000x128 (![0, 1] : Fin 2 → Fin S320000x128.rank)
  bcast_S_S10000x128 : S_.BroadcastsInDim S10000x128 (![] : Fin 0 → Fin S10000x128.rank)
  concatenates_S10000x128_S10000x128_S10000x128_S10000x384_d1 : Shape.Concatenates [S10000x128, S10000x128, S10000x128] S10000x384 1
  shapeCasts_S1x10000x128_S10000x128 : S1x10000x128.ShapeCasts S10000x128
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  slices_S10000x512_S10000x128_0_0 : S10000x512.Slices ![0, 0] S10000x128
  slices_S10000x512_S10000x128_0_128 : S10000x512.Slices ![0, 128] S10000x128
  slices_S10000x512_S10000x128_0_256 : S10000x512.Slices ![0, 256] S10000x128
  slices_S10000x512_S10000x128_0_384 : S10000x512.Slices ![0, 384] S10000x128
  bcast_S1x128_S10000x128_0_1 : S1x128.BroadcastsInDim S10000x128 (![0, 1] : Fin 2 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S10000x128_S1x10000x128_1_2 : S10000x128.BroadcastsInDim S1x10000x128 (![1, 2] : Fin 2 → Fin S1x10000x128.rank)
  gather_S10000x128_S320000x1_S320000x128_1_0_n_n_0_1_1128_wf : GatherDims.WF S10000x128 S320000x1 S320000x128 [1] [0] [] [0] [] 1 ![1, 128]
  dot_S320000x256_S256x256_S320000x256_1_0_0_1_n_n_wf : DotDims.WF S320000x256 S256x256 S320000x256 [1] [0] [0] [1] [] []
  dot_S320000x256_S256x128_S320000x128_1_0_0_1_n_n_wf : DotDims.WF S320000x256 S256x128 S320000x128 [1] [0] [0] [1] [] []
  scatter_S10000x128_S320000x1_S320000x128_1_0_0_1_wf : ScatterDims.WF S10000x128 S320000x1 S320000x128 [1] [0] [0] 1
  dot_S10000x384_S384x512_S10000x512_1_0_0_1_n_n_wf : DotDims.WF S10000x384 S384x512 S10000x512 [1] [0] [0] [1] [] []
  dot_S10000x128_S128x512_S10000x512_1_0_0_1_n_n_wf : DotDims.WF S10000x128 S128x512 S10000x512 [1] [0] [0] [1] [] []
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []

variable [Facts₀]

def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def dot_S320000x256_S256x256_S320000x256_1_0_0_1_n_n : DotDims S320000x256 S256x256 S320000x256 where
  lhsContracting := [1]
  rhsContracting := [0]
  lhsNonContracting := [0]
  rhsNonContracting := [1]
  lhsBatch := []
  rhsBatch := []
  wf := dot_S320000x256_S256x256_S320000x256_1_0_0_1_n_n_wf
def dot_S320000x256_S256x128_S320000x128_1_0_0_1_n_n : DotDims S320000x256 S256x128 S320000x128 where
  lhsContracting := [1]
  rhsContracting := [0]
  lhsNonContracting := [0]
  rhsNonContracting := [1]
  lhsBatch := []
  rhsBatch := []
  wf := dot_S320000x256_S256x128_S320000x128_1_0_0_1_n_n_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def dot_S10000x384_S384x512_S10000x512_1_0_0_1_n_n : DotDims S10000x384 S384x512 S10000x512 where
  lhsContracting := [1]
  rhsContracting := [0]
  lhsNonContracting := [0]
  rhsNonContracting := [1]
  lhsBatch := []
  rhsBatch := []
  wf := dot_S10000x384_S384x512_S10000x512_1_0_0_1_n_n_wf
def dot_S10000x128_S128x512_S10000x512_1_0_0_1_n_n : DotDims S10000x128 S128x512 S10000x512 where
  lhsContracting := [1]
  rhsContracting := [0]
  lhsNonContracting := [0]
  rhsNonContracting := [1]
  lhsBatch := []
  rhsBatch := []
  wf := dot_S10000x128_S128x512_S10000x512_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

class Facts : Prop extends Facts₀ where

variable [Facts]
-- ==== Proof.LibDenseRows.lean ====
/-
  Dense layers read along a row, for any number of rows and any widths. A dense layer sends a row x to x·W + b, and the
  rectifier takes the maximum with zero. A kernel spells the layer on a block of R rows as a block product into a zero
  accumulator plus the bias cast to one row and broadcast down the rows; a host program spells it on all R rows as a
  dot_general plus the bias broadcast in two steps. Read along row r, both are the row function of row r of the
  operand — at the extended reals, where the two products are the same sum over the contracted coordinate. The same
  for the rectifier in its two spellings (the maximum with a zero splat; the maximum with the zero word broadcast from
  a scalar), and for a change of float format, which changes no entry. The products are stated at the plain
  dimension record (rows × contraction times contraction × columns), to which a printed record of the same lists unfolds.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.LibDenseRows

open Idealize.ShloMosaic Idealize.ShloMosaic.ValueIdx

/-- The f32 word of zero read at the extended reals; kept as a word, since both spellings write the same one. -/
abbrev zeroW : EReal := Ideal.ofBits .f32 0x00000000#32

/-- A dense layer on one row: x ↦ x·W + b. -/
def dense {K N : ℕ} (x : Fin K → EReal) (W : Fin K → Fin N → EReal) (b : Fin N → EReal) : Fin N → EReal :=
  fun n => (∑ k : Fin K, x k * W k n) + b n

/-- The rectifier on one row. -/
def relu {N : ℕ} (x : Fin N → EReal) : Fin N → EReal := fun n => max (x n) zeroW

abbrev Sh2 (a b : ℕ) : Shape := ⟨2, ![a, b]⟩
abbrev Sh1 (a : ℕ) : Shape := ⟨1, ![a]⟩
abbrev Sh0 : Shape := ⟨0, ![]⟩

variable {R K N : ℕ} {φ₁ φ₂ : FTy}

/-- A block product into the zero accumulator, read at (a, b): the sum over the contracted coordinate. -/
theorem matmul_plain_zero_apply (prec : Option ContractPrecision) (A : FVec Ideal (Sh2 R K) φ₁) (B : FVec Ideal (Sh2 K N) φ₂)
    (a : Fin R) (b : Fin N) :
    matmul (DotDims.plain R K N) prec A B (constant (Sh2 R N) .f32 0x00000000#32) (ix2 a b) = ∑ c : Fin K, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

/-! ## Pointwise operations read at an index -/

theorem exp_apply {s : Shape} {φ : FTy} (v : FVec Ideal s φ) (i : s.Idx) : exp v i = Ideal.exp (v i) := rfl
theorem hostExp_apply {s : Shape} {φ : FTy} (v : FVec Ideal s φ) (i : s.Idx) : Host.exp v i = Ideal.exp (v i) := rfl
theorem hostDivf_apply {s : Shape} {φ : FTy} (a b : FVec Ideal s φ) (i : s.Idx) : Host.divf a b i = Ideal.div (a i) (b i) := rfl

/-- A change of float format changes no entry. -/
theorem truncf_row {φ ψ : FTy} (Z : FVec Ideal (Sh2 R N) φ) (h : ψ.bits < φ.bits) (r : Fin R) :
    (fun n : Fin N => (truncf ψ Z h : FVec Ideal (Sh2 R N) ψ) (ix2 r n)) = fun n => Z (ix2 r n) := rfl

/-! ## A kernel's spelling of a layer, on a block of R rows -/

/-- The kernel's dense layer: the block times the weights into a zero accumulator, plus the bias as a broadcast row. -/
def kDense (X : FVec Ideal (Sh2 R K) φ₁) (W : FVec Ideal (Sh2 K N) φ₂) (b : FVec Ideal (Sh1 N) .f32)
    (h1 : (Sh1 N).ShapeCasts (Sh2 1 N)) (h2 : (Sh2 1 N).Broadcasts (Sh2 R N)) : FVec Ideal (Sh2 R N) .f32 :=
  addf (matmul (DotDims.plain R K N) none X W (constant (Sh2 R N) .f32 0x00000000#32))
    (broadcastTo (Sh2 R N) (shapeCast (Sh2 1 N) b h1) h2)

theorem kDense_row (X : FVec Ideal (Sh2 R K) φ₁) (W : FVec Ideal (Sh2 K N) φ₂) (b : FVec Ideal (Sh1 N) .f32)
    (h1 : (Sh1 N).ShapeCasts (Sh2 1 N)) (h2 : (Sh2 1 N).Broadcasts (Sh2 R N)) (r : Fin R) :
    (fun n : Fin N => kDense X W b h1 h2 (ix2 r n))
      = dense (fun k => X (ix2 r k)) (fun k n => W (ix2 k n)) (fun n => b (ix1 n)) := by
  funext n
  unfold kDense dense
  rw [addf_apply, matmul_plain_zero_apply, broadcastTo_1b_ab_apply, shapeCast_a_1a_apply]

/-- The kernel's rectifier: the maximum with a splat of the zero word. -/
def kRelu (Z : FVec Ideal (Sh2 R N) .f32) : FVec Ideal (Sh2 R N) .f32 :=
  maximumf Z (broadcast (Sh2 R N) (Scalar.ofBits .f32 0x00000000#32))

theorem kRelu_row (Z : FVec Ideal (Sh2 R N) .f32) (r : Fin R) :
    (fun n : Fin N => kRelu Z (ix2 r n)) = relu (fun n => Z (ix2 r n)) := rfl

/-! ## A host program's spelling of a layer, on all R rows -/

/-- The host's dense layer: a dot_general plus the bias made a one-row matrix and repeated over the rows. -/
def hDense (X : FVec Ideal (Sh2 R K) φ₁) (W : FVec Ideal (Sh2 K N) φ₂) (b : FVec Ideal (Sh1 N) .f32)
    (h1 : (Sh1 N).BroadcastsInDim (Sh2 1 N) ![1]) (h2 : (Sh2 1 N).BroadcastsInDim (Sh2 R N) ![0, 1]) : FVec Ideal (Sh2 R N) .f32 :=
  addf (Host.dotGeneral (DotDims.plain R K N) none X W)
    (broadcastInDim (Sh2 R N) ![0, 1] h2 (broadcastInDim (Sh2 1 N) ![1] h1 b))

/-- A bias vector made a one-row matrix and then repeated over the rows reads, at (r, n), the bias at n. -/
theorem biasRows_apply {α : Type} (b : (Sh1 N).Idx → α)
    (h1 : (Sh1 N).BroadcastsInDim (Sh2 1 N) ![1]) (h2 : (Sh2 1 N).BroadcastsInDim (Sh2 R N) ![0, 1]) (r : Fin R) (n : Fin N) :
    broadcastInDim (Sh2 R N) ![0, 1] h2 (broadcastInDim (Sh2 1 N) ![1] h1 b) (ix2 r n) = b (ix1 n) := by
  rw [broadcastInDim_apply ![0, 1] h2 _ (ix2 r n) (ix2 (0 : Fin 1) n) (fun a => by
    match a with
    | ⟨0, _⟩ => rfl
    | ⟨1, _⟩ =>
      show n.val = if N = 1 then 0 else n.val
      split
      · have := n.isLt; omega
      · rfl)]
  rw [broadcastInDim_apply ![1] h1 b (ix2 (0 : Fin 1) n) (ix1 n) (fun a => by
    match a with
    | ⟨0, _⟩ =>
      show n.val = if N = 1 then 0 else n.val
      split
      · have := n.isLt; omega
      · rfl)]

theorem hDense_row (X : FVec Ideal (Sh2 R K) φ₁) (W : FVec Ideal (Sh2 K N) φ₂) (b : FVec Ideal (Sh1 N) .f32)
    (h1 : (Sh1 N).BroadcastsInDim (Sh2 1 N) ![1]) (h2 : (Sh2 1 N).BroadcastsInDim (Sh2 R N) ![0, 1]) (r : Fin R) :
    (fun n : Fin N => hDense X W b h1 h2 (ix2 r n))
      = dense (fun k => X (ix2 r k)) (fun k n => W (ix2 k n)) (fun n => b (ix1 n)) := by
  funext n
  unfold hDense dense
  rw [addf_apply, StackMember.dotGeneral_plain_apply, biasRows_apply]

/-- The reference's rectifier: the maximum with the zero word broadcast from a scalar. -/
def hRelu (Z : FVec Ideal (Sh2 R N) .f32) (hb : Sh0.BroadcastsInDim (Sh2 R N) ![]) : FVec Ideal (Sh2 R N) .f32 :=
  maximumf Z (broadcastInDim (Sh2 R N) ![] hb (constant Sh0 .f32 0x00000000#32))

theorem hRelu_row (Z : FVec Ideal (Sh2 R N) .f32) (hb : Sh0.BroadcastsInDim (Sh2 R N) ![]) (r : Fin R) :
    (fun n : Fin N => hRelu Z hb (ix2 r n)) = relu (fun n => Z (ix2 r n)) := by
  funext n
  unfold hRelu relu
  rw [maximumf_apply, broadcastInDim_apply ![] hb _ (ix2 r n) ix0 (fun a => a.elim0)]
  rfl

end Cert.LibDenseRows
-- ==== Proof.Spec.lean ====
/-
  The two programs' result arrays as functions of rows. An edge's message is two dense layers with a rectifier between
  them applied to the edge's row of endpoint states; a node's new cell and hidden state are the LSTM gate equations
  applied to the node's rows; a node's output is two dense layers with a rectifier applied to its new hidden state.
  Every array here is read row by row: entry (r, j) of a result depends only on row r of the row-wise operands, so a
  block of rows of the result is the same function of the matching block of rows of the operands.
-/
import Idealize.ShloMosaic.PureOps.Ideal.Laws
import Idealize.ShloMosaic.Lib.ValueIdx
import proofs.«147792_j55439437856890_1_alg».proof.Proof.LibDenseRows

noncomputable section

namespace Cert.Spec

open Idealize.ShloMosaic Idealize.ShloMosaic.ValueIdx Cert.LibDenseRows

/-! ## One row -/

/-- Two dense layers with a rectifier between them, on one row. -/
def mlpRow {K N1 N2 : ℕ} (x : Fin K → EReal) (W1 : Fin K → Fin N1 → EReal) (b1 : Fin N1 → EReal)
    (W2 : Fin N1 → Fin N2 → EReal) (b2 : Fin N2 → EReal) : Fin N2 → EReal :=
  dense (relu (dense x W1 b1)) W2 b2

/-- Three rows of width 128 side by side. -/
def cat3 (a b c : Fin 128 → EReal) : Fin 384 → EReal := fun k =>
  if h : k.val < 128 then a ⟨k.val, h⟩
  else if h2 : k.val < 256 then b ⟨k.val - 128, by omega⟩
  else c ⟨k.val - 256, by have := k.isLt; omega⟩

/-- The four gates' pre-activations of one node, 512 wide: u·W_ih + h·W_hh + b_ih + b_hh, added in this order. -/
def gatesRow (u : Fin 384 → EReal) (h : Fin 128 → EReal) (Wih : Fin 384 → Fin 512 → EReal) (Whh : Fin 128 → Fin 512 → EReal)
    (bih bhh : Fin 512 → EReal) : Fin 512 → EReal :=
  fun j => (∑ k : Fin 384, u k * Wih k j) + (∑ k : Fin 128, h k * Whh k j) + bih j + bhh j

/-- The new cell state of one node: σ(f)·c₀ + σ(i)·tanh(g), the gates i, f, g, o lying in this order in the 512. -/
def cRow (g : Fin 512 → EReal) (c0 : Fin 128 → EReal) : Fin 128 → EReal := fun j =>
  Ideal.logistic (g ⟨128 + j.val, by have := j.isLt; omega⟩) * c0 j
    + Ideal.logistic (g ⟨j.val, by have := j.isLt; omega⟩) * Ideal.tanh (g ⟨256 + j.val, by have := j.isLt; omega⟩)

/-- The new hidden state of one node: σ(o)·tanh(c). -/
def hRow (g : Fin 512 → EReal) (c : Fin 128 → EReal) : Fin 128 → EReal := fun j =>
  Ideal.logistic (g ⟨384 + j.val, by have := j.isLt; omega⟩) * Ideal.tanh (c j)

/-! ## All rows of an array -/

variable {R R' : ℕ}

/-- The two-layer perceptron on every row of `X`. -/
def mlpArr {K N1 N2 : ℕ} (X : FVec Ideal (Sh2 R K) .f32) (W1 : FVec Ideal (Sh2 K N1) .f32) (b1 : FVec Ideal (Sh1 N1) .f32)
    (W2 : FVec Ideal (Sh2 N1 N2) .f32) (b2 : FVec Ideal (Sh1 N2) .f32) : FVec Ideal (Sh2 R N2) .f32 :=
  fun i => mlpRow (fun k => X (ix2 (i 0) k)) (fun k n => W1 (ix2 k n)) (fun n => b1 (ix1 n))
    (fun k n => W2 (ix2 k n)) (fun n => b2 (ix1 n)) (i 1)

/-- The gates' pre-activations of every node. -/
def gatesArr (HS X SM H0 : FVec Ideal (Sh2 R 128) .f32) (Wih : FVec Ideal (Sh2 384 512) .f32) (Whh : FVec Ideal (Sh2 128 512) .f32)
    (bih bhh : FVec Ideal (Sh1 512) .f32) : FVec Ideal (Sh2 R 512) .f32 :=
  fun i => gatesRow (cat3 (fun k => HS (ix2 (i 0) k)) (fun k => X (ix2 (i 0) k)) (fun k => SM (ix2 (i 0) k)))
    (fun k => H0 (ix2 (i 0) k)) (fun k n => Wih (ix2 k n)) (fun k n => Whh (ix2 k n)) (fun n => bih (ix1 n)) (fun n => bhh (ix1 n)) (i 1)

/-- The new cell state of every node. -/
def cArr (G : FVec Ideal (Sh2 R 512) .f32) (C0 : FVec Ideal (Sh2 R 128) .f32) : FVec Ideal (Sh2 R 128) .f32 :=
  fun i => cRow (fun j => G (ix2 (i 0) j)) (fun j => C0 (ix2 (i 0) j)) (i 1)

/-- The new hidden state of every node. -/
def hArr (G : FVec Ideal (Sh2 R 512) .f32) (C : FVec Ideal (Sh2 R 128) .f32) : FVec Ideal (Sh2 R 128) .f32 :=
  fun i => hRow (fun j => G (ix2 (i 0) j)) (fun j => C (ix2 (i 0) j)) (i 1)

/-! ## Entry (r, j) depends on row r only -/

theorem mlpArr_row {K N1 N2 : ℕ} (X : FVec Ideal (Sh2 R K) .f32) (X' : FVec Ideal (Sh2 R' K) .f32) (W1 : FVec Ideal (Sh2 K N1) .f32)
    (b1 : FVec Ideal (Sh1 N1) .f32) (W2 : FVec Ideal (Sh2 N1 N2) .f32) (b2 : FVec Ideal (Sh1 N2) .f32) (r : Fin R) (r' : Fin R')
    (hX : ∀ k, X (ix2 r k) = X' (ix2 r' k)) (q : Fin N2) :
    mlpArr X W1 b1 W2 b2 (ix2 r q) = mlpArr X' W1 b1 W2 b2 (ix2 r' q) := by
  show mlpRow (fun k => X (ix2 r k)) _ _ _ _ q = mlpRow (fun k => X' (ix2 r' k)) _ _ _ _ q
  rw [funext hX]

theorem gatesArr_row (HS X SM H0 : FVec Ideal (Sh2 R 128) .f32) (HS' X' SM' H0' : FVec Ideal (Sh2 R' 128) .f32)
    (Wih : FVec Ideal (Sh2 384 512) .f32) (Whh : FVec Ideal (Sh2 128 512) .f32) (bih bhh : FVec Ideal (Sh1 512) .f32)
    (r : Fin R) (r' : Fin R') (h1 : ∀ k, HS (ix2 r k) = HS' (ix2 r' k)) (h2 : ∀ k, X (ix2 r k) = X' (ix2 r' k))
    (h3 : ∀ k, SM (ix2 r k) = SM' (ix2 r' k)) (h4 : ∀ k, H0 (ix2 r k) = H0' (ix2 r' k)) (q : Fin 512) :
    gatesArr HS X SM H0 Wih Whh bih bhh (ix2 r q) = gatesArr HS' X' SM' H0' Wih Whh bih bhh (ix2 r' q) := by
  show gatesRow (cat3 (fun k => HS (ix2 r k)) (fun k => X (ix2 r k)) (fun k => SM (ix2 r k))) (fun k => H0 (ix2 r k)) _ _ _ _ q
     = gatesRow (cat3 (fun k => HS' (ix2 r' k)) (fun k => X' (ix2 r' k)) (fun k => SM' (ix2 r' k))) (fun k => H0' (ix2 r' k)) _ _ _ _ q
  rw [funext h1, funext h2, funext h3, funext h4]

theorem cArr_row (G : FVec Ideal (Sh2 R 512) .f32) (G' : FVec Ideal (Sh2 R' 512) .f32) (C0 : FVec Ideal (Sh2 R 128) .f32)
    (C0' : FVec Ideal (Sh2 R' 128) .f32) (r : Fin R) (r' : Fin R') (h1 : ∀ k, G (ix2 r k) = G' (ix2 r' k))
    (h2 : ∀ k, C0 (ix2 r k) = C0' (ix2 r' k)) (q : Fin 128) :
    cArr G C0 (ix2 r q) = cArr G' C0' (ix2 r' q) := by
  show cRow (fun j => G (ix2 r j)) (fun j => C0 (ix2 r j)) q = cRow (fun j => G' (ix2 r' j)) (fun j => C0' (ix2 r' j)) q
  rw [funext h1, funext h2]

theorem hArr_row (G : FVec Ideal (Sh2 R 512) .f32) (G' : FVec Ideal (Sh2 R' 512) .f32) (C : FVec Ideal (Sh2 R 128) .f32)
    (C' : FVec Ideal (Sh2 R' 128) .f32) (r : Fin R) (r' : Fin R') (h1 : ∀ k, G (ix2 r k) = G' (ix2 r' k))
    (h2 : ∀ k, C (ix2 r k) = C' (ix2 r' k)) (q : Fin 128) :
    hArr G C (ix2 r q) = hArr G' C' (ix2 r' q) := by
  show hRow (fun j => G (ix2 r j)) (fun j => C (ix2 r j)) q = hRow (fun j => G' (ix2 r' j)) (fun j => C' (ix2 r' j)) q
  rw [funext h1, funext h2]

end Cert.Spec
-- ==== Proof.KSpellMlp.lean ====
/-
  The edge kernel's and the node kernel's dense parts, read row by row: the value each stores is the two-layer perceptron of the
  rows of the block it loaded (a change of float format changes no entry; a block product into a zero accumulator is the
  sum over the contracted coordinate).
-/
import proofs.«147792_j55439437856890_1_alg».proof.Proof.Gen.KernelIdeal.Skeleton
import proofs.«147792_j55439437856890_1_alg».proof.Proof.Spec

noncomputable section

namespace Cert.KernelIdeal.Spell

open Cert.KernelIdeal Cert.KernelIdeal.Gen Idealize.ShloMosaic Idealize.ShloMosaic.ValueIdx

/-- The edge kernel's stored value is the perceptron of its block of edge rows. -/
theorem pay_edge (v0 : Vec Ideal S6400x256 .f32) (v3 : Vec Ideal S256x256 .f32) (v6 : Vec Ideal S256 .f32)
    (v12 : Vec Ideal S256x128 .f32) (v16 : Vec Ideal S128 .f32) :
    k0_pay1 (F := Ideal) v0 v3 v6 v12 v16 = Cert.Spec.mlpArr v0 v3 v6 v12 v16 := by
  funext j
  obtain ⟨p, q, rfl⟩ : ∃ (p : Fin 6400) (q : Fin 128), j = ix2 p q := ⟨j 0, j 1, eq_ix2 j⟩
  -- Row p of the stored value is the perceptron of row p of the block.
  have row : (fun n : Fin 128 => k0_pay1 (F := Ideal) v0 v3 v6 v12 v16 (ix2 p n))
      = Cert.Spec.mlpRow (fun k => v0 (ix2 p k)) (fun k n => v3 (ix2 k n)) (fun n => v6 (ix1 n))
          (fun k n => v12 (ix2 k n)) (fun n => v16 (ix1 n)) := by
    -- The stored value is a dense layer of the rectified dense layer of the block, with changes of float format between.
    show (fun n : Fin 128 =>
        Cert.LibDenseRows.kDense (R := 6400) (K := 256) (N := 128)
          (truncf .bf16 (Cert.LibDenseRows.kRelu (Cert.LibDenseRows.kDense (R := 6400) (K := 256) (N := 256)
            (truncf .bf16 (shapeCast S6400x256 v0 shapeCasts_S6400x256_S6400x256) bitsLt_bf16_f32)
            (truncf .bf16 v3 bitsLt_bf16_f32) v6 shapeCasts_S256_S1x256 broadcasts_S1x256_S6400x256)) bitsLt_bf16_f32)
          (truncf .bf16 v12 bitsLt_bf16_f32) v16 shapeCasts_S128_S1x128 broadcasts_S1x128_S6400x128 (ix2 p n)) = _
    rw [Cert.LibDenseRows.kDense_row, Cert.LibDenseRows.truncf_row, Cert.LibDenseRows.kRelu_row,
      Cert.LibDenseRows.kDense_row, Cert.LibDenseRows.truncf_row, shapeCast_self]
    -- What is left differs only by a change of float format of the weights, which changes no entry.
    rfl
  exact congrFun row q

/-- The node kernel's output value is the perceptron of its block of new hidden rows. -/
theorem pay_out (v38 : FVec Ideal S2000x128 .f32) (v42 : Vec Ideal S128x128 .f32) (v45 : Vec Ideal S128 .f32)
    (v52 : Vec Ideal S128x64 .f32) (v55 : Vec Ideal S64 .f32) :
    k1_pay1 (F := Ideal) v38 v42 v45 v52 v55 = Cert.Spec.mlpArr v38 v42 v45 v52 v55 := by
  funext j
  obtain ⟨p, q, rfl⟩ : ∃ (p : Fin 2000) (q : Fin 64), j = ix2 p q := ⟨j 0, j 1, eq_ix2 j⟩
  -- Row p of the output value is the perceptron of row p of the block.
  have row : (fun n : Fin 64 => k1_pay1 (F := Ideal) v38 v42 v45 v52 v55 (ix2 p n))
      = Cert.Spec.mlpRow (fun k => v38 (ix2 p k)) (fun k n => v42 (ix2 k n)) (fun n => v45 (ix1 n))
          (fun k n => v52 (ix2 k n)) (fun n => v55 (ix1 n)) := by
    -- The output value is a dense layer of the rectified dense layer of the block, with changes of float format between.
    show (fun n : Fin 64 =>
        Cert.LibDenseRows.kDense (R := 2000) (K := 128) (N := 64)
          (truncf .bf16 (Cert.LibDenseRows.kRelu (Cert.LibDenseRows.kDense (R := 2000) (K := 128) (N := 128)
            (truncf .bf16 v38 bitsLt_bf16_f32)
            (truncf .bf16 v42 bitsLt_bf16_f32) v45 shapeCasts_S128_S1x128 broadcasts_S1x128_S2000x128)) bitsLt_bf16_f32)
          (truncf .bf16 v52 bitsLt_bf16_f32) v55 shapeCasts_S64_S1x64 broadcasts_S1x64_S2000x64 (ix2 p n)) = _
    rw [Cert.LibDenseRows.kDense_row, Cert.LibDenseRows.truncf_row, Cert.LibDenseRows.kRelu_row,
      Cert.LibDenseRows.kDense_row, Cert.LibDenseRows.truncf_row]
    -- What is left differs only by a change of float format of the weights, which changes no entry.
    rfl
  exact congrFun row q

end Cert.KernelIdeal.Spell
-- ==== Proof.Region0.lean ====
/-
  The edge region's result array: every block of 6400 edge rows that a grid point writes back is the perceptron of the
  matching rows of the region's input, and the 50 blocks cover the 320000 rows.
-/
import proofs.«147792_j55439437856890_1_alg».proof.Proof.Gen.KernelIdeal.Frame
import proofs.«147792_j55439437856890_1_alg».proof.Proof.KSpellMlp
import Idealize.ShloMosaic.Lib.Pipeline.Value

set_option maxRecDepth 16384

noncomputable section

namespace Cert.KernelIdeal.Regions

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## Where each block sits -/

/-- The origin of a rank-2 block. -/
theorem edge_origin2 : (![0, 0] : Fin 2 → Nat) = fun _ => 0 := funext fun a => by fin_cases a <;> rfl
/-- The origin of a rank-1 block. -/
theorem edge_origin1 : (![0] : Fin 1 → Nat) = fun _ => 0 := funext fun a => by fin_cases a; rfl

/-- At grid point t the edge rows' block and the message rows' block are block t down the rows and block 0 across; the
    two weight matrices' and the two biases' blocks are block 0 on every axis. -/
theorem edge_block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-! ## The input blocks as parts of the arrays -/

/-- Row p of the edge rows' block at point t is row 6400·t + p of the edge array. -/
theorem edge_rows_block (c : Dev nD) (t : Fin cfg0.N) (p : Fin 6400) (k : Fin 256) :
    (iblk0 V c 0 t : Vec Ideal S6400x256 .f32) (ix2 p k)
      = (V c main_v14 : Vec Ideal S320000x256 .f32)
          (ix2 ⟨t.val * 6400 + p.val, by have := t.isLt; have : cfg0.N = 50 := N_0; have := p.isLt; omega⟩ k) := by
  obtain ⟨e0, e1, -⟩ := edge_block_index t
  show V c main_v14 (((cfg0.win 0).blk t).view.emb (ix2 p k)) = V c main_v14 (ix2 ⟨_, _⟩ k)
  congr 1
  funext a
  apply Fin.ext
  match a with
  | ⟨0, _⟩ => show win0_0.index t (0 : Fin 2) * 6400 + 1 * p.val = t.val * 6400 + p.val; omega
  | ⟨1, _⟩ => show win0_0.index t (1 : Fin 2) * 256 + 1 * k.val = k.val; omega

/-- The first layer's weight block is the whole 256 × 256 matrix, at every point. -/
theorem edge_weight1_block (c : Dev nD) (t : Fin cfg0.N) :
    (iblk0 V c 1 t : Vec Ideal S256x256 .f32) = (V c main_arg6 : Vec Ideal S256x256 .f32) := by
  obtain ⟨-, -, e0, e1, -⟩ := edge_block_index t
  funext j
  obtain ⟨p, k, rfl⟩ : ∃ (p : Fin 256) (k : Fin 256), j = ix2 p k := ⟨j 0, j 1, eq_ix2 j⟩
  show V c main_arg6 (((cfg0.win 1).blk t).view.emb (ix2 p k)) = V c main_arg6 (ix2 p k)
  congr 1
  funext a
  apply Fin.ext
  match a with
  | ⟨0, _⟩ => show win0_1.index t (0 : Fin 2) * 256 + 1 * p.val = p.val; omega
  | ⟨1, _⟩ => show win0_1.index t (1 : Fin 2) * 256 + 1 * k.val = k.val; omega

/-- The first layer's bias block is the whole bias, at every point. -/
theorem edge_bias1_block (c : Dev nD) (t : Fin cfg0.N) :
    (iblk0 V c 2 t : Vec Ideal S256 .f32) = (V c main_arg7 : Vec Ideal S256 .f32) := by
  obtain ⟨-, -, -, -, e0, -⟩ := edge_block_index t
  funext j
  obtain ⟨p, rfl⟩ : ∃ (p : Fin 256), j = ix1 p := ⟨j 0, eq_ix1 j⟩
  show V c main_arg7 (((cfg0.win 2).blk t).view.emb (ix1 p)) = V c main_arg7 (ix1 p)
  congr 1
  funext a
  apply Fin.ext
  match a with
  | ⟨0, _⟩ => show win0_2.index t (0 : Fin 1) * 256 + 1 * p.val = p.val; omega

/-- The second layer's weight block is the whole 256 × 128 matrix, at every point. -/
theorem edge_weight2_block (c : Dev nD) (t : Fin cfg0.N) :
    (iblk0 V c 3 t : Vec Ideal S256x128 .f32) = (V c main_arg8 : Vec Ideal S256x128 .f32) := by
  obtain ⟨-, -, -, -, -, e0, e1, -⟩ := edge_block_index t
  funext j
  obtain ⟨p, k, rfl⟩ : ∃ (p : Fin 256) (k : Fin 128), j = ix2 p k := ⟨j 0, j 1, eq_ix2 j⟩
  show V c main_arg8 (((cfg0.win 3).blk t).view.emb (ix2 p k)) = V c main_arg8 (ix2 p k)
  congr 1
  funext a
  apply Fin.ext
  match a with
  | ⟨0, _⟩ => show win0_3.index t (0 : Fin 2) * 256 + 1 * p.val = p.val; omega
  | ⟨1, _⟩ => show win0_3.index t (1 : Fin 2) * 128 + 1 * k.val = k.val; omega

/-- The second layer's bias block is the whole bias, at every point. -/
theorem edge_bias2_block (c : Dev nD) (t : Fin cfg0.N) :
    (iblk0 V c 4 t : Vec Ideal S128 .f32) = (V c main_arg9 : Vec Ideal S128 .f32) := by
  obtain ⟨-, -, -, -, -, -, -, e0, -⟩ := edge_block_index t
  funext j
  obtain ⟨p, rfl⟩ : ∃ (p : Fin 128), j = ix1 p := ⟨j 0, eq_ix1 j⟩
  show V c main_arg9 (((cfg0.win 4).blk t).view.emb (ix1 p)) = V c main_arg9 (ix1 p)
  congr 1
  funext a
  apply Fin.ext
  match a with
  | ⟨0, _⟩ => show win0_4.index t (0 : Fin 1) * 128 + 1 * p.val = p.val; omega

/-! ## One block of messages -/

/-- What point t writes back is rows 6400·t … 6400·t + 6399 of the perceptron of the whole edge array: the stored value
    is the perceptron of the block's rows, a row of the perceptron depends on the same row of its operand only, and
    row p of the block is row 6400·t + p of the array. -/
theorem edge_messages_block (c : Dev nD) (t : Fin cfg0.N) :
    (dat0 (F := Ideal) V c).flushed 5 t = ((cfg0.win 5).blk t).view.read (Elt Ideal)
      (Cert.Spec.mlpArr (V c main_v14) (V c main_arg6) (V c main_arg7) (V c main_arg8) (V c main_arg9)) := by
  show (cfg0.win 5).cut (grid0.coords t) ((dat0 V c).after 5 t) = _
  rw [after0_5]
  unfold out0_5
  rw [View.canon_unit_zero edge_origin2]
  simp only [View.ld_unit_zero (S := S6400x256) edge_origin2, View.ld_unit_zero (S := S256x256) edge_origin2,
    View.ld_unit_zero (S := S256) edge_origin1, View.ld_unit_zero (S := S256x128) edge_origin2,
    View.ld_unit_zero (S := S128) edge_origin1]
  rw [Cert.KernelIdeal.Spell.pay_edge]
  rw [edge_weight1_block, edge_bias1_block, edge_weight2_block, edge_bias2_block]
  obtain ⟨-, -, -, -, -, -, -, -, e0, e1⟩ := edge_block_index t
  funext j
  obtain ⟨p, q, rfl⟩ : ∃ (p : Fin 6400) (q : Fin 128), j = ix2 p q := ⟨j 0, j 1, eq_ix2 j⟩
  have hr : t.val * 6400 + p.val < 320000 := by have := t.isLt; have : cfg0.N = 50 := N_0; have := p.isLt; omega
  show Cert.Spec.mlpArr (iblk0 V c 0 t) (V c main_arg6) (V c main_arg7) (V c main_arg8) (V c main_arg9) (ix2 p q)
    = Cert.Spec.mlpArr (V c main_v14) (V c main_arg6) (V c main_arg7) (V c main_arg8) (V c main_arg9)
        (((cfg0.win 5).blk t).view.emb (ix2 p q))
  have he : ((cfg0.win 5).blk t).view.emb (ix2 p q) = (ix2 ⟨t.val * 6400 + p.val, hr⟩ q : S320000x128.Idx) := by
    funext a
    apply Fin.ext
    match a with
    | ⟨0, _⟩ => show win0_5.index t (0 : Fin 2) * 6400 + 1 * p.val = t.val * 6400 + p.val; omega
    | ⟨1, _⟩ => show win0_5.index t (1 : Fin 2) * 128 + 1 * q.val = q.val; omega
  rw [he]
  exact Cert.Spec.mlpArr_row _ _ _ _ _ _ p ⟨t.val * 6400 + p.val, hr⟩ (fun k => edge_rows_block V c t p k) q

/-! ## The blocks cover the message array -/

/-- An index of the message array is in point t's block iff each coordinate is in the block's range on its axis. -/
theorem edge_mem_block (t : Fin cfg0.N) (i : S320000x128.Idx) :
    i ∈ ((cfg0.win 5).blk t).view.set ↔ ∀ a : Fin 2, win0_5.index t a * S6400x128.size a ≤ (i a).val
      ∧ (i a).val < win0_5.index t a * S6400x128.size a + S6400x128.size a := by
  show i ∈ ((View.whole main_v15).slice (win0_5.rect t)).set ↔ _
  rw [View.set_slice_whole, Rect.mem_set_unit]
  exact Iff.rfl

/-- Row r of the message array is in the block of point r / 6400, which is written back. -/
theorem edge_blocks_cover (i : S320000x128.Idx) :
    ∃ t : Fin cfg0.N, (cfg0.win 5).flush t = true ∧ i ∈ ((cfg0.win 5).blk t).view.set := by
  have hi0 : (i 0).val < 320000 := (i 0).isLt
  have hi1 : (i 1).val < 128 := (i 1).isLt
  have hN : cfg0.N = 50 := N_0
  refine ⟨⟨(i 0).val / 6400, by omega⟩, flush0_5 _, ?_⟩
  rw [edge_mem_block]
  obtain ⟨-, -, -, -, -, -, -, -, e0, e1⟩ := edge_block_index ⟨(i 0).val / 6400, by omega⟩
  intro a
  match a with
  | ⟨0, _⟩ =>
    show win0_5.index ⟨(i 0).val / 6400, _⟩ (0 : Fin 2) * 6400 ≤ (i 0).val
      ∧ (i 0).val < win0_5.index ⟨(i 0).val / 6400, _⟩ (0 : Fin 2) * 6400 + 6400
    rw [e0]; dsimp only; omega
  | ⟨1, _⟩ =>
    show win0_5.index ⟨(i 0).val / 6400, _⟩ (1 : Fin 2) * 128 ≤ (i 1).val
      ∧ (i 1).val < win0_5.index ⟨(i 0).val / 6400, _⟩ (1 : Fin 2) * 128 + 128
    rw [e1]; omega

/-! ## The whole array -/

/-- After the edge region the message array holds the perceptron of every row of the region's input array. -/
theorem final0 (c : Dev nD) :
    (dat0 (F := Ideal) V c).arrAt 5 cfg0.N
      = Cert.Spec.mlpArr (V c main_v14) (V c main_arg6) (V c main_arg7) (V c main_arg8) (V c main_arg9) :=
  (dat0 (F := Ideal) V c).arrAt_eq_of_cover 5 _ (fun t _ => edge_messages_block V c t) edge_blocks_cover

end Cert.KernelIdeal.Regions
-- ==== Proof.LibLstmRows.lean ====
/-
  The pieces of an LSTM step read along a row, for any number of rows. Three blocks of 128 columns laid side by side
  read, at (r, k), the first block's row r for k < 128, the second's for 128 ≤ k < 256 and the third's beyond. A bias
  vector cast to one row and repeated down the rows reads, at (r, n), the bias at n. A block of 128 columns cut out
  of a wider array at column offset o reads, at (r, j), the array at (r, o + j). The quotient 1 / (1 + e^(-x)), with 1
  written as its f32 word, is the logistic function. And a sum P + Q + (b + b') is (P + Q + b) + b', the extended
  reals' addition being associative.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import proofs.«147792_j55439437856890_1_alg».proof.Proof.LibDenseRows

noncomputable section

namespace Cert.LibLstmRows

open Idealize.ShloMosaic Idealize.ShloMosaic.ValueIdx Cert.LibDenseRows

variable {R : ℕ} {α : Type}

/-! ## Three blocks of 128 columns side by side -/

/-- Three [R, 128] arrays concatenated along the columns read, at (r, k), the piece that holds column k. -/
theorem concat3_apply (A B C : (Sh2 R 128).Idx → α)
    (h : Shape.Concatenates [Sh2 R 128, Sh2 R 128, Sh2 R 128] (Sh2 R 384) 1) (r : Fin R) (k : Fin 384) :
    concatenate (Sh2 R 384) 1 [⟨Sh2 R 128, A⟩, ⟨Sh2 R 128, B⟩, ⟨Sh2 R 128, C⟩] h (ix2 r k)
      = if h1 : k.val < 128 then A (ix2 r ⟨k.val, h1⟩)
        else if h2 : k.val < 256 then B (ix2 r ⟨k.val - 128, by omega⟩)
        else C (ix2 r ⟨k.val - 256, by have := k.isLt; omega⟩) := by
  by_cases h1 : k.val < 128
  · rw [dif_pos h1]
    exact concatenate_apply_piece (t := Sh2 R 384) (1 : Fin 2) [⟨Sh2 R 128, A⟩, ⟨Sh2 R 128, B⟩, ⟨Sh2 R 128, C⟩] h (ix2 r k) 0 (by show _ < 3; omega) (Sh2 R 128) A rfl rfl 0 rfl (ix2 r ⟨k.val, h1⟩)
      (fun b hb => by
        match b with
        | ⟨0, _⟩ => rfl
        | ⟨1, _⟩ => exact absurd rfl hb)
      (by show 0 + k.val = k.val; omega)
  · rw [dif_neg h1]
    by_cases h2 : k.val < 256
    · rw [dif_pos h2]
      exact concatenate_apply_piece (t := Sh2 R 384) (1 : Fin 2) [⟨Sh2 R 128, A⟩, ⟨Sh2 R 128, B⟩, ⟨Sh2 R 128, C⟩] h (ix2 r k) 1 (by show _ < 3; omega) (Sh2 R 128) B rfl rfl 128 rfl
        (ix2 r ⟨k.val - 128, by omega⟩)
        (fun b hb => by
          match b with
          | ⟨0, _⟩ => rfl
          | ⟨1, _⟩ => exact absurd rfl hb)
        (by show 128 + (k.val - 128) = k.val; omega)
    · rw [dif_neg h2]
      exact concatenate_apply_piece (t := Sh2 R 384) (1 : Fin 2) [⟨Sh2 R 128, A⟩, ⟨Sh2 R 128, B⟩, ⟨Sh2 R 128, C⟩] h (ix2 r k) 2 (by show _ < 3; omega) (Sh2 R 128) C rfl rfl 256 rfl
        (ix2 r ⟨k.val - 256, by have := k.isLt; omega⟩)
        (fun b hb => by
          match b with
          | ⟨0, _⟩ => rfl
          | ⟨1, _⟩ => exact absurd rfl hb)
        (by show 256 + (k.val - 256) = k.val; omega)

/-! ## A bias vector as a broadcast row -/

variable {N : ℕ}

/-- A bias vector cast to one row and repeated down the rows reads, at (r, n), the bias at n. -/
theorem biasRow_apply (b : (Sh1 N).Idx → α) (h1 : (Sh1 N).ShapeCasts (Sh2 1 N)) (h2 : (Sh2 1 N).Broadcasts (Sh2 R N))
    (r : Fin R) (n : Fin N) :
    broadcastTo (Sh2 R N) (shapeCast (Sh2 1 N) b h1) h2 (ix2 r n) = b (ix1 n) := by
  rw [broadcastTo_1b_ab_apply, shapeCast_a_1a_apply]

/-! ## A block of 128 columns cut out of a wider array -/

/-- Columns o … o + 127 of an [R, M] array read, at (r, j), the array at (r, o + j). -/
theorem cols128_apply {M : ℕ} (o : ℕ) (G : (Sh2 R M).Idx → α) (h : (Sh2 R M).Slices ![0, o] (Sh2 R 128)) (hM : o + 128 ≤ M)
    (r : Fin R) (j : Fin 128) :
    extractStridedSlice (Sh2 R 128) ![0, o] G h (ix2 r j) = G (ix2 r ⟨o + j.val, by have := j.isLt; omega⟩) :=
  slice2_axis1_apply o G h r j ⟨o + j.val, by have := j.isLt; omega⟩ rfl

/-! ## The logistic function spelled as a quotient -/

/-- The f32 word 0x3F800000 is the number one. -/
theorem oneW : Ideal.ofBits .f32 0x3F800000#32 = 1 := by
  simp [Ideal.ofBits, Ideal.ieee, -EReal.coe_mul]; norm_num

/-- 1 / (1 + e^(-x)), with 1 written as its f32 word, is the logistic function of x. -/
theorem logistic_spelled (x : EReal) :
    Ideal.div (Ideal.ofBits .f32 0x3F800000#32) (Ideal.ofBits .f32 0x3F800000#32 + Ideal.exp (-x)) = Ideal.logistic x := by
  rw [oneW]; rfl

/-- A host program's logistic function: the one word broadcast from a scalar, divided by itself plus the
    exponential of the negated operand. -/
def hLogistic {s : Shape} (Z : FVec Ideal s .f32) (hb : Sh0.BroadcastsInDim s ![]) : FVec Ideal s .f32 :=
  Host.divf (broadcastInDim s ![] hb (constant Sh0 .f32 0x3F800000#32))
    (addf (broadcastInDim s ![] hb (constant Sh0 .f32 0x3F800000#32)) (Host.exp (Host.negf Z)))

theorem hLogistic_apply {s : Shape} (Z : FVec Ideal s .f32) (hb : Sh0.BroadcastsInDim s ![]) (i : s.Idx) :
    hLogistic Z hb i = Ideal.logistic (Z i) := by
  unfold hLogistic
  rw [hostDivf_apply, addf_apply, broadcastInDim_apply ![] hb _ i ix0 (fun a => a.elim0)]
  exact logistic_spelled (Z i)

/-! ## The gates' pre-activations, in a kernel's spelling and in a host program's -/

/-- The gates' pre-activations of row r at column q: (hs, x, sm)·W_ih + h·W_hh + b_ih + b_hh, added in this order. -/
def gatesAt (HS X SM H0 : FVec Ideal (Sh2 R 128) .f32) (Wih : FVec Ideal (Sh2 384 512) .f32) (Whh : FVec Ideal (Sh2 128 512) .f32)
    (bih bhh : FVec Ideal (Sh1 512) .f32) (r : Fin R) (q : Fin 512) : EReal :=
  (∑ k : Fin 384, (if h1 : k.val < 128 then HS (ix2 r ⟨k.val, h1⟩)
      else if h2 : k.val < 256 then X (ix2 r ⟨k.val - 128, by omega⟩)
      else SM (ix2 r ⟨k.val - 256, by have := k.isLt; omega⟩)) * Wih (ix2 k q))
    + (∑ k : Fin 128, H0 (ix2 r k) * Whh (ix2 k q)) + bih (ix1 q) + bhh (ix1 q)

/-- A kernel's spelling on a block of R rows: the three blocks side by side times W_ih and the hidden block times
    W_hh, each into a zero accumulator, their sum, then the two biases added one after the other as broadcast rows. -/
def kGates (HS X SM H0 : FVec Ideal (Sh2 R 128) .f32) (Wih : FVec Ideal (Sh2 384 512) .f32) (Whh : FVec Ideal (Sh2 128 512) .f32)
    (bih bhh : FVec Ideal (Sh1 512) .f32) (hc : Shape.Concatenates [Sh2 R 128, Sh2 R 128, Sh2 R 128] (Sh2 R 384) 1)
    (hs : (Sh2 R 128).ShapeCasts (Sh2 R 128)) (h1 : (Sh1 512).ShapeCasts (Sh2 1 512)) (h2 : (Sh2 1 512).Broadcasts (Sh2 R 512))
    (hb : FTy.bits .bf16 < FTy.bits .f32) : FVec Ideal (Sh2 R 512) .f32 :=
  addf (addf (addf
      (matmul (DotDims.plain R 384 512) none
        (truncf .bf16 (concatenate (Sh2 R 384) 1 [⟨Sh2 R 128, HS⟩, ⟨Sh2 R 128, X⟩, ⟨Sh2 R 128, shapeCast (Sh2 R 128) SM hs⟩] hc) hb)
        (truncf .bf16 Wih hb) (constant (Sh2 R 512) .f32 0x00000000#32))
      (matmul (DotDims.plain R 128 512) none (truncf .bf16 (shapeCast (Sh2 R 128) H0 hs) hb) (truncf .bf16 Whh hb)
        (constant (Sh2 R 512) .f32 0x00000000#32)))
      (broadcastTo (Sh2 R 512) (shapeCast (Sh2 1 512) bih h1) h2))
    (broadcastTo (Sh2 R 512) (shapeCast (Sh2 1 512) bhh h1) h2)

theorem kGates_apply (HS X SM H0 : FVec Ideal (Sh2 R 128) .f32) (Wih : FVec Ideal (Sh2 384 512) .f32) (Whh : FVec Ideal (Sh2 128 512) .f32)
    (bih bhh : FVec Ideal (Sh1 512) .f32) (hc : Shape.Concatenates [Sh2 R 128, Sh2 R 128, Sh2 R 128] (Sh2 R 384) 1)
    (hs : (Sh2 R 128).ShapeCasts (Sh2 R 128)) (h1 : (Sh1 512).ShapeCasts (Sh2 1 512)) (h2 : (Sh2 1 512).Broadcasts (Sh2 R 512))
    (hb : FTy.bits .bf16 < FTy.bits .f32) (r : Fin R) (q : Fin 512) :
    kGates HS X SM H0 Wih Whh bih bhh hc hs h1 h2 hb (ix2 r q) = gatesAt HS X SM H0 Wih Whh bih bhh r q := by
  unfold kGates gatesAt
  rw [addf_apply, addf_apply, addf_apply, matmul_plain_zero_apply, matmul_plain_zero_apply, biasRow_apply, biasRow_apply]
  simp only [truncf_apply, shapeCast_self, concat3_apply]

/-- A host program's spelling on all R rows: the concatenation times W_ih plus the hidden states times W_hh, as two
    dot_generals, plus the sum of the two biases made a one-row matrix and repeated over the rows. -/
def hGates (HS X SM H0 : FVec Ideal (Sh2 R 128) .f32) (Wih : FVec Ideal (Sh2 384 512) .f32) (Whh : FVec Ideal (Sh2 128 512) .f32)
    (bih bhh : FVec Ideal (Sh1 512) .f32) (hc : Shape.Concatenates [Sh2 R 128, Sh2 R 128, Sh2 R 128] (Sh2 R 384) 1)
    (h1 : (Sh1 512).BroadcastsInDim (Sh2 1 512) ![1]) (h2 : (Sh2 1 512).BroadcastsInDim (Sh2 R 512) ![0, 1]) :
    FVec Ideal (Sh2 R 512) .f32 :=
  addf (addf
      (Host.dotGeneral (DotDims.plain R 384 512) none
        (concatenate (Sh2 R 384) 1 [⟨Sh2 R 128, HS⟩, ⟨Sh2 R 128, X⟩, ⟨Sh2 R 128, SM⟩] hc) Wih)
      (Host.dotGeneral (DotDims.plain R 128 512) none H0 Whh))
    (broadcastInDim (Sh2 R 512) ![0, 1] h2 (broadcastInDim (Sh2 1 512) ![1] h1 (addf bih bhh)))

theorem hGates_apply (HS X SM H0 : FVec Ideal (Sh2 R 128) .f32) (Wih : FVec Ideal (Sh2 384 512) .f32) (Whh : FVec Ideal (Sh2 128 512) .f32)
    (bih bhh : FVec Ideal (Sh1 512) .f32) (hc : Shape.Concatenates [Sh2 R 128, Sh2 R 128, Sh2 R 128] (Sh2 R 384) 1)
    (h1 : (Sh1 512).BroadcastsInDim (Sh2 1 512) ![1]) (h2 : (Sh2 1 512).BroadcastsInDim (Sh2 R 512) ![0, 1])
    (r : Fin R) (q : Fin 512) :
    hGates HS X SM H0 Wih Whh bih bhh hc h1 h2 (ix2 r q) = gatesAt HS X SM H0 Wih Whh bih bhh r q := by
  unfold hGates gatesAt
  rw [addf_apply, addf_apply, StackMember.dotGeneral_plain_apply, StackMember.dotGeneral_plain_apply, biasRows_apply,
    addf_apply, ← add_assoc]
  simp only [concat3_apply]

/-! ## The new cell and hidden states, in a kernel's spelling and in a host program's -/

/-- The new cell state of row r at column j: σ(f)·c₀ + σ(i)·tanh(g), the gates i, f, g, o lying in this order. -/
def cellAt (G : FVec Ideal (Sh2 R 512) .f32) (C0 : FVec Ideal (Sh2 R 128) .f32) (r : Fin R) (j : Fin 128) : EReal :=
  Ideal.logistic (G (ix2 r ⟨128 + j.val, by have := j.isLt; omega⟩)) * C0 (ix2 r j)
    + Ideal.logistic (G (ix2 r ⟨j.val, by have := j.isLt; omega⟩)) * Ideal.tanh (G (ix2 r ⟨256 + j.val, by have := j.isLt; omega⟩))

/-- The new hidden state of row r at column j: σ(o)·tanh(c). -/
def hiddenAt (G : FVec Ideal (Sh2 R 512) .f32) (C : FVec Ideal (Sh2 R 128) .f32) (r : Fin R) (j : Fin 128) : EReal :=
  Ideal.logistic (G (ix2 r ⟨384 + j.val, by have := j.isLt; omega⟩)) * Ideal.tanh (C (ix2 r j))

/-- A kernel's spelling of the new cell state: slices of the gates, the logistic and tanh operations, products and a sum. -/
def kCell (G : FVec Ideal (Sh2 R 512) .f32) (C0 : FVec Ideal (Sh2 R 128) .f32)
    (s0 : (Sh2 R 512).Slices ![0, 0] (Sh2 R 128)) (s1 : (Sh2 R 512).Slices ![0, 128] (Sh2 R 128))
    (s2 : (Sh2 R 512).Slices ![0, 256] (Sh2 R 128)) (hs : (Sh2 R 128).ShapeCasts (Sh2 R 128)) : FVec Ideal (Sh2 R 128) .f32 :=
  addf (mulf (logistic (extractStridedSlice (Sh2 R 128) ![0, 128] G s1)) (shapeCast (Sh2 R 128) C0 hs))
    (mulf (logistic (extractStridedSlice (Sh2 R 128) ![0, 0] G s0)) (tanh (extractStridedSlice (Sh2 R 128) ![0, 256] G s2)))

theorem kCell_apply (G : FVec Ideal (Sh2 R 512) .f32) (C0 : FVec Ideal (Sh2 R 128) .f32)
    (s0 : (Sh2 R 512).Slices ![0, 0] (Sh2 R 128)) (s1 : (Sh2 R 512).Slices ![0, 128] (Sh2 R 128))
    (s2 : (Sh2 R 512).Slices ![0, 256] (Sh2 R 128)) (hs : (Sh2 R 128).ShapeCasts (Sh2 R 128)) (r : Fin R) (j : Fin 128) :
    kCell G C0 s0 s1 s2 hs (ix2 r j) = cellAt G C0 r j := by
  unfold kCell cellAt
  rw [shapeCast_self]
  show Ideal.logistic (extractStridedSlice (Sh2 R 128) ![0, 128] G s1 (ix2 r j)) * C0 (ix2 r j)
    + Ideal.logistic (extractStridedSlice (Sh2 R 128) ![0, 0] G s0 (ix2 r j))
      * Ideal.tanh (extractStridedSlice (Sh2 R 128) ![0, 256] G s2 (ix2 r j)) = _
  rw [cols128_apply 128 G s1 (by omega), cols128_apply 0 G s0 (by omega), cols128_apply 256 G s2 (by omega)]
  simp only [Nat.zero_add]

/-- A kernel's spelling of the new hidden state. -/
def kHidden (G : FVec Ideal (Sh2 R 512) .f32) (C : FVec Ideal (Sh2 R 128) .f32)
    (s3 : (Sh2 R 512).Slices ![0, 384] (Sh2 R 128)) : FVec Ideal (Sh2 R 128) .f32 :=
  mulf (logistic (extractStridedSlice (Sh2 R 128) ![0, 384] G s3)) (tanh C)

theorem kHidden_apply (G : FVec Ideal (Sh2 R 512) .f32) (C : FVec Ideal (Sh2 R 128) .f32)
    (s3 : (Sh2 R 512).Slices ![0, 384] (Sh2 R 128)) (r : Fin R) (j : Fin 128) :
    kHidden G C s3 (ix2 r j) = hiddenAt G C r j := by
  unfold kHidden hiddenAt
  show Ideal.logistic (extractStridedSlice (Sh2 R 128) ![0, 384] G s3 (ix2 r j)) * Ideal.tanh (C (ix2 r j)) = _
  rw [cols128_apply 384 G s3 (by omega)]

/-- A host program's spelling of the new cell state: slices of the gates, the logistic function as a quotient, the
    host's tanh, products and a sum. -/
def hCell (G : FVec Ideal (Sh2 R 512) .f32) (C0 : FVec Ideal (Sh2 R 128) .f32) (hb : Sh0.BroadcastsInDim (Sh2 R 128) ![])
    (s0 : (Sh2 R 512).Slices ![0, 0] (Sh2 R 128)) (s1 : (Sh2 R 512).Slices ![0, 128] (Sh2 R 128))
    (s2 : (Sh2 R 512).Slices ![0, 256] (Sh2 R 128)) : FVec Ideal (Sh2 R 128) .f32 :=
  addf (mulf (hLogistic (extractStridedSlice (Sh2 R 128) ![0, 128] G s1) hb) C0)
    (mulf (hLogistic (extractStridedSlice (Sh2 R 128) ![0, 0] G s0) hb) (Host.tanh (extractStridedSlice (Sh2 R 128) ![0, 256] G s2)))

theorem hCell_apply (G : FVec Ideal (Sh2 R 512) .f32) (C0 : FVec Ideal (Sh2 R 128) .f32) (hb : Sh0.BroadcastsInDim (Sh2 R 128) ![])
    (s0 : (Sh2 R 512).Slices ![0, 0] (Sh2 R 128)) (s1 : (Sh2 R 512).Slices ![0, 128] (Sh2 R 128))
    (s2 : (Sh2 R 512).Slices ![0, 256] (Sh2 R 128)) (r : Fin R) (j : Fin 128) :
    hCell G C0 hb s0 s1 s2 (ix2 r j) = cellAt G C0 r j := by
  unfold hCell cellAt
  rw [addf_apply, mulf_apply, mulf_apply, hLogistic_apply, hLogistic_apply]
  show Ideal.logistic (extractStridedSlice (Sh2 R 128) ![0, 128] G s1 (ix2 r j)) * C0 (ix2 r j)
    + Ideal.logistic (extractStridedSlice (Sh2 R 128) ![0, 0] G s0 (ix2 r j))
      * Ideal.tanh (extractStridedSlice (Sh2 R 128) ![0, 256] G s2 (ix2 r j)) = _
  rw [cols128_apply 128 G s1 (by omega), cols128_apply 0 G s0 (by omega), cols128_apply 256 G s2 (by omega)]
  simp only [Nat.zero_add]

/-- A host program's spelling of the new hidden state. -/
def hHidden (G : FVec Ideal (Sh2 R 512) .f32) (C : FVec Ideal (Sh2 R 128) .f32) (hb : Sh0.BroadcastsInDim (Sh2 R 128) ![])
    (s3 : (Sh2 R 512).Slices ![0, 384] (Sh2 R 128)) : FVec Ideal (Sh2 R 128) .f32 :=
  mulf (hLogistic (extractStridedSlice (Sh2 R 128) ![0, 384] G s3) hb) (Host.tanh C)

theorem hHidden_apply (G : FVec Ideal (Sh2 R 512) .f32) (C : FVec Ideal (Sh2 R 128) .f32) (hb : Sh0.BroadcastsInDim (Sh2 R 128) ![])
    (s3 : (Sh2 R 512).Slices ![0, 384] (Sh2 R 128)) (r : Fin R) (j : Fin 128) :
    hHidden G C hb s3 (ix2 r j) = hiddenAt G C r j := by
  unfold hHidden hiddenAt
  rw [mulf_apply, hLogistic_apply]
  show Ideal.logistic (extractStridedSlice (Sh2 R 128) ![0, 384] G s3 (ix2 r j)) * Ideal.tanh (C (ix2 r j)) = _
  rw [cols128_apply 384 G s3 (by omega)]

end Cert.LibLstmRows
-- ==== Proof.KSpellCell.lean ====
/-
  The node kernel's LSTM part, read row by row: the gates' pre-activations, the new cell state and the new hidden state it
  computes on a block of nodes are the gate equations of each node's rows.
-/
import proofs.«147792_j55439437856890_1_alg».proof.Proof.Gen.KernelIdeal.Skeleton
import proofs.«147792_j55439437856890_1_alg».proof.Proof.Spec
import proofs.«147792_j55439437856890_1_alg».proof.Proof.LibLstmRows

noncomputable section

namespace Cert.KernelIdeal.Spell

open Cert.KernelIdeal Cert.KernelIdeal.Gen Idealize.ShloMosaic Idealize.ShloMosaic.ValueIdx Cert.LibDenseRows Cert.LibLstmRows

theorem pay_gates (v0 v1 v2 : Vec Ideal S2000x128 .f32) (v6 : Vec Ideal S384x512 .f32) (v9 : Vec Ideal S2000x128 .f32)
    (v12 : Vec Ideal S128x512 .f32) (v16 v20 : Vec Ideal S512 .f32) :
    k1_pay2 (F := Ideal) v0 v1 v2 v6 v9 v12 v16 v20 = Cert.Spec.gatesArr v0 v1 v2 v9 v6 v12 v16 v20 := by
  funext i
  obtain ⟨r, q, rfl⟩ : ∃ (r : Fin 2000) (q : Fin 512), i = ix2 r q := ⟨i 0, i 1, eq_ix2 i⟩
  exact kGates_apply (R := 2000) v0 v1 v2 v9 v6 v12 v16 v20 concatenates_S2000x128_S2000x128_S2000x128_S2000x384_d1
    shapeCasts_S2000x128_S2000x128 shapeCasts_S512_S1x512 broadcasts_S1x512_S2000x512 bitsLt_bf16_f32 r q

theorem pay_cell (v0 v1 v2 : Vec Ideal S2000x128 .f32) (v6 : Vec Ideal S384x512 .f32) (v9 : Vec Ideal S2000x128 .f32)
    (v12 : Vec Ideal S128x512 .f32) (v16 v20 : Vec Ideal S512 .f32) (v29 : Vec Ideal S2000x128 .f32) :
    k1_pay3 (F := Ideal) v0 v1 v2 v6 v9 v12 v16 v20 v29
      = Cert.Spec.cArr (Cert.Spec.gatesArr v0 v1 v2 v9 v6 v12 v16 v20) v29 := by
  unfold k1_pay3
  rw [pay_gates]
  funext i
  obtain ⟨r, j, rfl⟩ : ∃ (r : Fin 2000) (j : Fin 128), i = ix2 r j := ⟨i 0, i 1, eq_ix2 i⟩
  exact kCell_apply (R := 2000) (Cert.Spec.gatesArr v0 v1 v2 v9 v6 v12 v16 v20) v29 slices_S2000x512_o0_0_S2000x128
    slices_S2000x512_o0_128_S2000x128 slices_S2000x512_o0_256_S2000x128 shapeCasts_S2000x128_S2000x128 r j

theorem pay_hidden (v0 v1 v2 : Vec Ideal S2000x128 .f32) (v6 : Vec Ideal S384x512 .f32) (v9 : Vec Ideal S2000x128 .f32)
    (v12 : Vec Ideal S128x512 .f32) (v16 v20 : Vec Ideal S512 .f32) (v29 : Vec Ideal S2000x128 .f32) :
    k1_pay4 (F := Ideal) v0 v1 v2 v6 v9 v12 v16 v20 v29
      = Cert.Spec.hArr (Cert.Spec.gatesArr v0 v1 v2 v9 v6 v12 v16 v20)
          (Cert.Spec.cArr (Cert.Spec.gatesArr v0 v1 v2 v9 v6 v12 v16 v20) v29) := by
  unfold k1_pay4
  rw [pay_cell, pay_gates]
  funext i
  obtain ⟨r, j, rfl⟩ : ∃ (r : Fin 2000) (j : Fin 128), i = ix2 r j := ⟨i 0, i 1, eq_ix2 i⟩
  exact kHidden_apply (R := 2000) (Cert.Spec.gatesArr v0 v1 v2 v9 v6 v12 v16 v20)
    (Cert.Spec.cArr (Cert.Spec.gatesArr v0 v1 v2 v9 v6 v12 v16 v20) v29) slices_S2000x512_o0_384_S2000x128 r j

end Cert.KernelIdeal.Spell
-- ==== Proof.Region1.lean ====
/-
  The node region's three result arrays: every block of 2000 node rows that a grid point writes back is the LSTM step and
  the output perceptron of the matching rows of the region's inputs, and the 5 blocks cover the 10000 rows.

  Point t reads rows 2000·t … 2000·t + 1999 of the five row-wise operands (hidden states, inputs, summed messages, previous
  hidden and cell state) and the whole of every weight and bias array, and writes rows 2000·t … 2000·t + 1999 of the three
  results. Entry (r, j) of each result depends on row r of the row-wise operands only, so the block a point writes back is
  the matching block of rows of the result computed from the whole arrays; row r lies in the block of point r / 2000.
-/
import proofs.«147792_j55439437856890_1_alg».proof.Proof.Gen.KernelIdeal.Frame
import proofs.«147792_j55439437856890_1_alg».proof.Proof.KSpellMlp
import proofs.«147792_j55439437856890_1_alg».proof.Proof.KSpellCell
import Idealize.ShloMosaic.Lib.Pipeline.Value

set_option maxRecDepth 16384

noncomputable section

namespace Cert.KernelIdeal.Regions

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

namespace Node

/-! ## The grid and the index maps -/

/-- The zero offsets of a rank-2 and of a rank-1 block. -/
theorem zero2 : (![0, 0] : Fin 2 → Nat) = fun _ => 0 := funext fun a => by fin_cases a <;> rfl
theorem zero1 : (![0] : Fin 1 → Nat) = fun _ => 0 := funext fun a => by fin_cases a; rfl

/-- The node region's grid has 5 points. -/
theorem points1 : cfg1.N = 5 := N_1

/-- The index maps of the row-wise windows over the grid: point t reads and writes block (t, 0). -/
theorem rows_index : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = t.val ∧ win1_4.index t (1 : Fin 2) = 0)
    ∧ (win1_13.index t (0 : Fin 2) = t.val ∧ win1_13.index t (1 : Fin 2) = 0)
    ∧ (win1_14.index t (0 : Fin 2) = t.val ∧ win1_14.index t (1 : Fin 2) = 0)
    ∧ (win1_15.index t (0 : Fin 2) = t.val ∧ win1_15.index t (1 : Fin 2) = 0) :=
  (by decide +kernel : ∀ t : Fin grid1.N, _)

/-- The index maps of the weight and bias windows over the grid: every point reads block 0, the whole array. -/
theorem weights_index : ∀ t : Fin cfg1.N,
    (win1_5.index t (0 : Fin 2) = 0 ∧ win1_5.index t (1 : Fin 2) = 0)
    ∧ (win1_6.index t (0 : Fin 2) = 0 ∧ win1_6.index t (1 : Fin 2) = 0)
    ∧ (win1_9.index t (0 : Fin 2) = 0 ∧ win1_9.index t (1 : Fin 2) = 0)
    ∧ (win1_11.index t (0 : Fin 2) = 0 ∧ win1_11.index t (1 : Fin 2) = 0)
    ∧ win1_7.index t (0 : Fin 1) = 0 ∧ win1_8.index t (0 : Fin 1) = 0
    ∧ win1_10.index t (0 : Fin 1) = 0 ∧ win1_12.index t (0 : Fin 1) = 0 :=
  (by decide +kernel : ∀ t : Fin grid1.N, _)

/-- Row p of point t's block is row 2000·t + p of the array, below 10000. -/
theorem row_lt (t : Fin cfg1.N) (p : Fin 2000) : t.val * 2000 + p.val < 10000 := by
  have h5 : t.val < 5 := lt_of_lt_of_eq t.isLt points1
  have := p.isLt; omega

/-! ## A row-wise operand's block at point t, read at (p, k), is the array at (2000·t + p, k) -/

theorem blk_hs (c : Dev nD) (t : Fin cfg1.N) (p : Fin 2000) (k : Fin 128) :
    (iblk1 V c 0 t : Vec Ideal S2000x128 .f32) (ix2 p k) = (V c main_arg1 : S10000x128.Idx → EReal) (ix2 ⟨t.val * 2000 + p.val, row_lt t p⟩ k) := by
  show V c main_arg1 (((cfg1.win 0).blk t).view.emb (ix2 p k)) = V c main_arg1 (ix2 ⟨t.val * 2000 + p.val, row_lt t p⟩ k)
  refine congrArg _ ?_
  funext a; apply Fin.ext
  obtain ⟨⟨e0, e1⟩, -, -, -, -, -, -, -⟩ := rows_index t
  match a with
  | ⟨0, _⟩ => show win1_0.index t (0 : Fin 2) * 2000 + 1 * p.val = t.val * 2000 + p.val; omega
  | ⟨1, _⟩ => show win1_0.index t (1 : Fin 2) * 128 + 1 * k.val = k.val; omega

theorem blk_x (c : Dev nD) (t : Fin cfg1.N) (p : Fin 2000) (k : Fin 128) :
    (iblk1 V c 1 t : Vec Ideal S2000x128 .f32) (ix2 p k) = (V c main_arg0 : S10000x128.Idx → EReal) (ix2 ⟨t.val * 2000 + p.val, row_lt t p⟩ k) := by
  show V c main_arg0 (((cfg1.win 1).blk t).view.emb (ix2 p k)) = V c main_arg0 (ix2 ⟨t.val * 2000 + p.val, row_lt t p⟩ k)
  refine congrArg _ ?_
  funext a; apply Fin.ext
  obtain ⟨-, ⟨e0, e1⟩, -, -, -, -, -, -⟩ := rows_index t
  match a with
  | ⟨0, _⟩ => show win1_1.index t (0 : Fin 2) * 2000 + 1 * p.val = t.val * 2000 + p.val; omega
  | ⟨1, _⟩ => show win1_1.index t (1 : Fin 2) * 128 + 1 * k.val = k.val; omega

theorem blk_sm (c : Dev nD) (t : Fin cfg1.N) (p : Fin 2000) (k : Fin 128) :
    (iblk1 V c 2 t : Vec Ideal S2000x128 .f32) (ix2 p k) = (V c main_v18 : S10000x128.Idx → EReal) (ix2 ⟨t.val * 2000 + p.val, row_lt t p⟩ k) := by
  show V c main_v18 (((cfg1.win 2).blk t).view.emb (ix2 p k)) = V c main_v18 (ix2 ⟨t.val * 2000 + p.val, row_lt t p⟩ k)
  refine congrArg _ ?_
  funext a; apply Fin.ext
  obtain ⟨-, -, ⟨e0, e1⟩, -, -, -, -, -⟩ := rows_index t
  match a with
  | ⟨0, _⟩ => show win1_2.index t (0 : Fin 2) * 2000 + 1 * p.val = t.val * 2000 + p.val; omega
  | ⟨1, _⟩ => show win1_2.index t (1 : Fin 2) * 128 + 1 * k.val = k.val; omega

theorem blk_h0 (c : Dev nD) (t : Fin cfg1.N) (p : Fin 2000) (k : Fin 128) :
    (iblk1 V c 3 t : Vec Ideal S2000x128 .f32) (ix2 p k) = (V c main_v19 : S10000x128.Idx → EReal) (ix2 ⟨t.val * 2000 + p.val, row_lt t p⟩ k) := by
  show V c main_v19 (((cfg1.win 3).blk t).view.emb (ix2 p k)) = V c main_v19 (ix2 ⟨t.val * 2000 + p.val, row_lt t p⟩ k)
  refine congrArg _ ?_
  funext a; apply Fin.ext
  obtain ⟨-, -, -, ⟨e0, e1⟩, -, -, -, -⟩ := rows_index t
  match a with
  | ⟨0, _⟩ => show win1_3.index t (0 : Fin 2) * 2000 + 1 * p.val = t.val * 2000 + p.val; omega
  | ⟨1, _⟩ => show win1_3.index t (1 : Fin 2) * 128 + 1 * k.val = k.val; omega

theorem blk_c0 (c : Dev nD) (t : Fin cfg1.N) (p : Fin 2000) (k : Fin 128) :
    (iblk1 V c 4 t : Vec Ideal S2000x128 .f32) (ix2 p k) = (V c main_v20 : S10000x128.Idx → EReal) (ix2 ⟨t.val * 2000 + p.val, row_lt t p⟩ k) := by
  show V c main_v20 (((cfg1.win 4).blk t).view.emb (ix2 p k)) = V c main_v20 (ix2 ⟨t.val * 2000 + p.val, row_lt t p⟩ k)
  refine congrArg _ ?_
  funext a; apply Fin.ext
  obtain ⟨-, -, -, -, ⟨e0, e1⟩, -, -, -⟩ := rows_index t
  match a with
  | ⟨0, _⟩ => show win1_4.index t (0 : Fin 2) * 2000 + 1 * p.val = t.val * 2000 + p.val; omega
  | ⟨1, _⟩ => show win1_4.index t (1 : Fin 2) * 128 + 1 * k.val = k.val; omega

/-! ## A weight or bias operand's block at any point is the whole array -/

theorem blk_wih (c : Dev nD) (t : Fin cfg1.N) :
    (iblk1 V c 5 t : Vec Ideal S384x512 .f32) = (V c main_arg10 : S384x512.Idx → EReal) := by
  funext j
  show V c main_arg10 (((cfg1.win 5).blk t).view.emb j) = V c main_arg10 j
  refine congrArg _ ?_
  funext a; apply Fin.ext
  obtain ⟨⟨e0, e1⟩, -, -, -, -, -, -, -⟩ := weights_index t
  match a with
  | ⟨0, _⟩ => show win1_5.index t (0 : Fin 2) * 384 + 1 * (j 0).val = (j 0).val; omega
  | ⟨1, _⟩ => show win1_5.index t (1 : Fin 2) * 512 + 1 * (j 1).val = (j 1).val; omega

theorem blk_whh (c : Dev nD) (t : Fin cfg1.N) :
    (iblk1 V c 6 t : Vec Ideal S128x512 .f32) = (V c main_arg11 : S128x512.Idx → EReal) := by
  funext j
  show V c main_arg11 (((cfg1.win 6).blk t).view.emb j) = V c main_arg11 j
  refine congrArg _ ?_
  funext a; apply Fin.ext
  obtain ⟨-, ⟨e0, e1⟩, -, -, -, -, -, -⟩ := weights_index t
  match a with
  | ⟨0, _⟩ => show win1_6.index t (0 : Fin 2) * 128 + 1 * (j 0).val = (j 0).val; omega
  | ⟨1, _⟩ => show win1_6.index t (1 : Fin 2) * 512 + 1 * (j 1).val = (j 1).val; omega

theorem blk_w1 (c : Dev nD) (t : Fin cfg1.N) :
    (iblk1 V c 9 t : Vec Ideal S128x128 .f32) = (V c main_arg14 : S128x128.Idx → EReal) := by
  funext j
  show V c main_arg14 (((cfg1.win 9).blk t).view.emb j) = V c main_arg14 j
  refine congrArg _ ?_
  funext a; apply Fin.ext
  obtain ⟨-, -, ⟨e0, e1⟩, -, -, -, -, -⟩ := weights_index t
  match a with
  | ⟨0, _⟩ => show win1_9.index t (0 : Fin 2) * 128 + 1 * (j 0).val = (j 0).val; omega
  | ⟨1, _⟩ => show win1_9.index t (1 : Fin 2) * 128 + 1 * (j 1).val = (j 1).val; omega

theorem blk_w2 (c : Dev nD) (t : Fin cfg1.N) :
    (iblk1 V c 11 t : Vec Ideal S128x64 .f32) = (V c main_arg16 : S128x64.Idx → EReal) := by
  funext j
  show V c main_arg16 (((cfg1.win 11).blk t).view.emb j) = V c main_arg16 j
  refine congrArg _ ?_
  funext a; apply Fin.ext
  obtain ⟨-, -, -, ⟨e0, e1⟩, -, -, -, -⟩ := weights_index t
  match a with
  | ⟨0, _⟩ => show win1_11.index t (0 : Fin 2) * 128 + 1 * (j 0).val = (j 0).val; omega
  | ⟨1, _⟩ => show win1_11.index t (1 : Fin 2) * 64 + 1 * (j 1).val = (j 1).val; omega

theorem blk_bih (c : Dev nD) (t : Fin cfg1.N) :
    (iblk1 V c 7 t : Vec Ideal S512 .f32) = (V c main_arg12 : S512.Idx → EReal) := by
  funext j
  show V c main_arg12 (((cfg1.win 7).blk t).view.emb j) = V c main_arg12 j
  refine congrArg _ ?_
  funext a; apply Fin.ext
  obtain ⟨-, -, -, -, e0, -, -, -⟩ := weights_index t
  match a with
  | ⟨0, _⟩ => show win1_7.index t (0 : Fin 1) * 512 + 1 * (j 0).val = (j 0).val; omega

theorem blk_bhh (c : Dev nD) (t : Fin cfg1.N) :
    (iblk1 V c 8 t : Vec Ideal S512 .f32) = (V c main_arg13 : S512.Idx → EReal) := by
  funext j
  show V c main_arg13 (((cfg1.win 8).blk t).view.emb j) = V c main_arg13 j
  refine congrArg _ ?_
  funext a; apply Fin.ext
  obtain ⟨-, -, -, -, -, e0, -, -⟩ := weights_index t
  match a with
  | ⟨0, _⟩ => show win1_8.index t (0 : Fin 1) * 512 + 1 * (j 0).val = (j 0).val; omega

theorem blk_b1 (c : Dev nD) (t : Fin cfg1.N) :
    (iblk1 V c 10 t : Vec Ideal S128 .f32) = (V c main_arg15 : S128.Idx → EReal) := by
  funext j
  show V c main_arg15 (((cfg1.win 10).blk t).view.emb j) = V c main_arg15 j
  refine congrArg _ ?_
  funext a; apply Fin.ext
  obtain ⟨-, -, -, -, -, -, e0, -⟩ := weights_index t
  match a with
  | ⟨0, _⟩ => show win1_10.index t (0 : Fin 1) * 128 + 1 * (j 0).val = (j 0).val; omega

theorem blk_b2 (c : Dev nD) (t : Fin cfg1.N) :
    (iblk1 V c 12 t : Vec Ideal S64 .f32) = (V c main_arg17 : S64.Idx → EReal) := by
  funext j
  show V c main_arg17 (((cfg1.win 12).blk t).view.emb j) = V c main_arg17 j
  refine congrArg _ ?_
  funext a; apply Fin.ext
  obtain ⟨-, -, -, -, -, -, -, e0⟩ := weights_index t
  match a with
  | ⟨0, _⟩ => show win1_12.index t (0 : Fin 1) * 64 + 1 * (j 0).val = (j 0).val; omega

/-! ## Rows of a block are rows of the array -/

/-- The gates' pre-activations of row p of point t's blocks are those of row 2000·t + p of the arrays. -/
theorem gates_rows (c : Dev nD) (t : Fin cfg1.N) (p : Fin 2000) (k : Fin 512) :
    (Cert.Spec.gatesArr (iblk1 V c 0 t : Vec Ideal S2000x128 .f32) (iblk1 V c 1 t : Vec Ideal S2000x128 .f32) (iblk1 V c 2 t : Vec Ideal S2000x128 .f32) (iblk1 V c 3 t : Vec Ideal S2000x128 .f32) (V c main_arg10) (V c main_arg11) (V c main_arg12) (V c main_arg13)) (ix2 p k)
      = (Cert.Spec.gatesArr (V c main_arg1) (V c main_arg0) (V c main_v18) (V c main_v19) (V c main_arg10) (V c main_arg11) (V c main_arg12) (V c main_arg13)) (ix2 (⟨t.val * 2000 + p.val, row_lt t p⟩ : Fin 10000) k) :=
  Cert.Spec.gatesArr_row _ _ _ _ _ _ _ _ _ _ _ _ p (⟨t.val * 2000 + p.val, row_lt t p⟩ : Fin 10000) (blk_hs V c t p) (blk_x V c t p) (blk_sm V c t p) (blk_h0 V c t p) k

/-- The same for the new cell state. -/
theorem cell_rows (c : Dev nD) (t : Fin cfg1.N) (p : Fin 2000) (k : Fin 128) :
    (Cert.Spec.cArr (Cert.Spec.gatesArr (iblk1 V c 0 t : Vec Ideal S2000x128 .f32) (iblk1 V c 1 t : Vec Ideal S2000x128 .f32) (iblk1 V c 2 t : Vec Ideal S2000x128 .f32) (iblk1 V c 3 t : Vec Ideal S2000x128 .f32) (V c main_arg10) (V c main_arg11) (V c main_arg12) (V c main_arg13)) (iblk1 V c 4 t : Vec Ideal S2000x128 .f32)) (ix2 p k)
      = (Cert.Spec.cArr (Cert.Spec.gatesArr (V c main_arg1) (V c main_arg0) (V c main_v18) (V c main_v19) (V c main_arg10) (V c main_arg11) (V c main_arg12) (V c main_arg13)) (V c main_v20)) (ix2 (⟨t.val * 2000 + p.val, row_lt t p⟩ : Fin 10000) k) :=
  Cert.Spec.cArr_row _ _ _ _ p (⟨t.val * 2000 + p.val, row_lt t p⟩ : Fin 10000) (gates_rows V c t p) (blk_c0 V c t p) k

/-- The same for the new hidden state. -/
theorem hidden_rows (c : Dev nD) (t : Fin cfg1.N) (p : Fin 2000) (k : Fin 128) :
    (Cert.Spec.hArr (Cert.Spec.gatesArr (iblk1 V c 0 t : Vec Ideal S2000x128 .f32) (iblk1 V c 1 t : Vec Ideal S2000x128 .f32) (iblk1 V c 2 t : Vec Ideal S2000x128 .f32) (iblk1 V c 3 t : Vec Ideal S2000x128 .f32) (V c main_arg10) (V c main_arg11) (V c main_arg12) (V c main_arg13)) (Cert.Spec.cArr (Cert.Spec.gatesArr (iblk1 V c 0 t : Vec Ideal S2000x128 .f32) (iblk1 V c 1 t : Vec Ideal S2000x128 .f32) (iblk1 V c 2 t : Vec Ideal S2000x128 .f32) (iblk1 V c 3 t : Vec Ideal S2000x128 .f32) (V c main_arg10) (V c main_arg11) (V c main_arg12) (V c main_arg13)) (iblk1 V c 4 t : Vec Ideal S2000x128 .f32))) (ix2 p k)
      = (Cert.Spec.hArr (Cert.Spec.gatesArr (V c main_arg1) (V c main_arg0) (V c main_v18) (V c main_v19) (V c main_arg10) (V c main_arg11) (V c main_arg12) (V c main_arg13)) (Cert.Spec.cArr (Cert.Spec.gatesArr (V c main_arg1) (V c main_arg0) (V c main_v18) (V c main_v19) (V c main_arg10) (V c main_arg11) (V c main_arg12) (V c main_arg13)) (V c main_v20))) (ix2 (⟨t.val * 2000 + p.val, row_lt t p⟩ : Fin 10000) k) :=
  Cert.Spec.hArr_row _ _ _ _ p (⟨t.val * 2000 + p.val, row_lt t p⟩ : Fin 10000) (gates_rows V c t p) (cell_rows V c t p) k

/-- The same for the output perceptron of the new hidden state. -/
theorem out_rows (c : Dev nD) (t : Fin cfg1.N) (p : Fin 2000) (q : Fin 64) :
    (Cert.Spec.mlpArr (Cert.Spec.hArr (Cert.Spec.gatesArr (iblk1 V c 0 t : Vec Ideal S2000x128 .f32) (iblk1 V c 1 t : Vec Ideal S2000x128 .f32) (iblk1 V c 2 t : Vec Ideal S2000x128 .f32) (iblk1 V c 3 t : Vec Ideal S2000x128 .f32) (V c main_arg10) (V c main_arg11) (V c main_arg12) (V c main_arg13)) (Cert.Spec.cArr (Cert.Spec.gatesArr (iblk1 V c 0 t : Vec Ideal S2000x128 .f32) (iblk1 V c 1 t : Vec Ideal S2000x128 .f32) (iblk1 V c 2 t : Vec Ideal S2000x128 .f32) (iblk1 V c 3 t : Vec Ideal S2000x128 .f32) (V c main_arg10) (V c main_arg11) (V c main_arg12) (V c main_arg13)) (iblk1 V c 4 t : Vec Ideal S2000x128 .f32))) (V c main_arg14) (V c main_arg15) (V c main_arg16) (V c main_arg17)) (ix2 p q)
      = (Cert.Spec.mlpArr (Cert.Spec.hArr (Cert.Spec.gatesArr (V c main_arg1) (V c main_arg0) (V c main_v18) (V c main_v19) (V c main_arg10) (V c main_arg11) (V c main_arg12) (V c main_arg13)) (Cert.Spec.cArr (Cert.Spec.gatesArr (V c main_arg1) (V c main_arg0) (V c main_v18) (V c main_v19) (V c main_arg10) (V c main_arg11) (V c main_arg12) (V c main_arg13)) (V c main_v20))) (V c main_arg14) (V c main_arg15) (V c main_arg16) (V c main_arg17)) (ix2 (⟨t.val * 2000 + p.val, row_lt t p⟩ : Fin 10000) q) :=
  Cert.Spec.mlpArr_row _ _ _ _ _ _ p (⟨t.val * 2000 + p.val, row_lt t p⟩ : Fin 10000) (hidden_rows V c t p) q

/-! ## Where a result block's element sits in its array -/

theorem emb_c (t : Fin cfg1.N) (p : Fin 2000) (q : Fin 128) :
    ((cfg1.win 15).blk t).view.emb (ix2 p q) = (ix2 (⟨t.val * 2000 + p.val, row_lt t p⟩ : Fin 10000) q : S10000x128.Idx) := by
  funext a; apply Fin.ext
  obtain ⟨-, -, -, -, -, -, -, ⟨e0, e1⟩⟩ := rows_index t
  match a with
  | ⟨0, _⟩ => show win1_15.index t (0 : Fin 2) * 2000 + 1 * p.val = t.val * 2000 + p.val; omega
  | ⟨1, _⟩ => show win1_15.index t (1 : Fin 2) * 128 + 1 * q.val = q.val; omega

theorem emb_h (t : Fin cfg1.N) (p : Fin 2000) (q : Fin 128) :
    ((cfg1.win 14).blk t).view.emb (ix2 p q) = (ix2 (⟨t.val * 2000 + p.val, row_lt t p⟩ : Fin 10000) q : S10000x128.Idx) := by
  funext a; apply Fin.ext
  obtain ⟨-, -, -, -, -, -, ⟨e0, e1⟩, -⟩ := rows_index t
  match a with
  | ⟨0, _⟩ => show win1_14.index t (0 : Fin 2) * 2000 + 1 * p.val = t.val * 2000 + p.val; omega
  | ⟨1, _⟩ => show win1_14.index t (1 : Fin 2) * 128 + 1 * q.val = q.val; omega

theorem emb_out (t : Fin cfg1.N) (p : Fin 2000) (q : Fin 64) :
    ((cfg1.win 13).blk t).view.emb (ix2 p q) = (ix2 (⟨t.val * 2000 + p.val, row_lt t p⟩ : Fin 10000) q : S10000x64.Idx) := by
  funext a; apply Fin.ext
  obtain ⟨-, -, -, -, -, ⟨e0, e1⟩, -, -⟩ := rows_index t
  match a with
  | ⟨0, _⟩ => show win1_13.index t (0 : Fin 2) * 2000 + 1 * p.val = t.val * 2000 + p.val; omega
  | ⟨1, _⟩ => show win1_13.index t (1 : Fin 2) * 64 + 1 * q.val = q.val; omega

/-! ## What a point writes back -/

/-- Point t writes back block t of the new cell state of the region-entry arrays. -/
theorem flushed_c (c : Dev nD) (t : Fin cfg1.N) :
    (dat1 (F := Ideal) V c).flushed 15 t = ((cfg1.win 15).blk t).view.read (Elt Ideal)
      (Cert.Spec.cArr (Cert.Spec.gatesArr (V c main_arg1) (V c main_arg0) (V c main_v18) (V c main_v19) (V c main_arg10) (V c main_arg11) (V c main_arg12) (V c main_arg13)) (V c main_v20)) := by
  show (cfg1.win 15).cut (grid1.coords t) ((dat1 (F := Ideal) V c).after 15 t) = _
  rw [after1_15]
  unfold out1_15
  rw [View.canon_unit_zero zero2]
  simp only [View.ld_unit_zero (S := S2000x128) zero2, View.ld_unit_zero (S := S384x512) zero2, View.ld_unit_zero (S := S128x512) zero2, View.ld_unit_zero (S := S512) zero1]
  rw [Spell.pay_cell, blk_wih, blk_whh, blk_bih, blk_bhh]
  funext j
  obtain ⟨p, q, rfl⟩ : ∃ (p : Fin 2000) (q : Fin 128), j = ix2 p q := ⟨j 0, j 1, eq_ix2 j⟩
  show Cert.Spec.cArr _ _ (ix2 p q) = Cert.Spec.cArr _ _ (((cfg1.win 15).blk t).view.emb (ix2 p q))
  rw [emb_c]
  exact cell_rows V c t p q

/-- Point t writes back block t of the new hidden state of the region-entry arrays. -/
theorem flushed_h (c : Dev nD) (t : Fin cfg1.N) :
    (dat1 (F := Ideal) V c).flushed 14 t = ((cfg1.win 14).blk t).view.read (Elt Ideal)
      (Cert.Spec.hArr (Cert.Spec.gatesArr (V c main_arg1) (V c main_arg0) (V c main_v18) (V c main_v19) (V c main_arg10) (V c main_arg11) (V c main_arg12) (V c main_arg13)) (Cert.Spec.cArr (Cert.Spec.gatesArr (V c main_arg1) (V c main_arg0) (V c main_v18) (V c main_v19) (V c main_arg10) (V c main_arg11) (V c main_arg12) (V c main_arg13)) (V c main_v20))) := by
  show (cfg1.win 14).cut (grid1.coords t) ((dat1 (F := Ideal) V c).after 14 t) = _
  rw [after1_14]
  unfold out1_14
  rw [View.canon_unit_zero zero2]
  simp only [View.ld_unit_zero (S := S2000x128) zero2, View.ld_unit_zero (S := S384x512) zero2, View.ld_unit_zero (S := S128x512) zero2, View.ld_unit_zero (S := S512) zero1]
  rw [Spell.pay_hidden, blk_wih, blk_whh, blk_bih, blk_bhh]
  funext j
  obtain ⟨p, q, rfl⟩ : ∃ (p : Fin 2000) (q : Fin 128), j = ix2 p q := ⟨j 0, j 1, eq_ix2 j⟩
  show Cert.Spec.hArr _ _ (ix2 p q) = Cert.Spec.hArr _ _ (((cfg1.win 14).blk t).view.emb (ix2 p q))
  rw [emb_h]
  exact hidden_rows V c t p q

/-- Point t writes back block t of the output perceptron of the new hidden state of the region-entry arrays. -/
theorem flushed_out (c : Dev nD) (t : Fin cfg1.N) :
    (dat1 (F := Ideal) V c).flushed 13 t = ((cfg1.win 13).blk t).view.read (Elt Ideal)
      (Cert.Spec.mlpArr (Cert.Spec.hArr (Cert.Spec.gatesArr (V c main_arg1) (V c main_arg0) (V c main_v18) (V c main_v19) (V c main_arg10) (V c main_arg11) (V c main_arg12) (V c main_arg13)) (Cert.Spec.cArr (Cert.Spec.gatesArr (V c main_arg1) (V c main_arg0) (V c main_v18) (V c main_v19) (V c main_arg10) (V c main_arg11) (V c main_arg12) (V c main_arg13)) (V c main_v20))) (V c main_arg14) (V c main_arg15) (V c main_arg16) (V c main_arg17)) := by
  show (cfg1.win 13).cut (grid1.coords t) ((dat1 (F := Ideal) V c).after 13 t) = _
  rw [after1_13]
  unfold out1_13
  rw [View.canon_unit_zero zero2]
  simp only [View.ld_unit_zero (S := S2000x128) zero2, View.ld_unit_zero (S := S384x512) zero2, View.ld_unit_zero (S := S128x512) zero2, View.ld_unit_zero (S := S512) zero1, View.ld_unit_zero (S := S128x128) zero2, View.ld_unit_zero (S := S128) zero1, View.ld_unit_zero (S := S128x64) zero2, View.ld_unit_zero (S := S64) zero1]
  rw [Spell.pay_out, Spell.pay_hidden, blk_wih, blk_whh, blk_bih, blk_bhh, blk_w1, blk_b1, blk_w2, blk_b2]
  funext j
  obtain ⟨p, q, rfl⟩ : ∃ (p : Fin 2000) (q : Fin 64), j = ix2 p q := ⟨j 0, j 1, eq_ix2 j⟩
  show Cert.Spec.mlpArr _ _ _ _ _ (ix2 p q) = Cert.Spec.mlpArr _ _ _ _ _ (((cfg1.win 13).blk t).view.emb (ix2 p q))
  rw [emb_out]
  exact out_rows V c t p q

/-! ## The blocks cover the arrays -/

/-- An index of the array is in point t's block iff each coordinate is in the block's range on its axis. -/
theorem mem_blk_c (t : Fin cfg1.N) (i : S10000x128.Idx) :
    i ∈ ((cfg1.win 15).blk t).view.set ↔ ∀ a : Fin 2, win1_15.index t a * S2000x128.size a ≤ (i a).val ∧ (i a).val < win1_15.index t a * S2000x128.size a + S2000x128.size a := by
  show i ∈ ((View.whole main_v21_2).slice (win1_15.rect t)).set ↔ _
  rw [View.set_slice_whole, Rect.mem_set_unit]
  exact Iff.rfl

/-- Row r lies in the block of point r / 2000: the 5 blocks cover the 10000 rows. -/
theorem cover_c (i : S10000x128.Idx) :
    ∃ t : Fin cfg1.N, (cfg1.win 15).flush t = true ∧ i ∈ ((cfg1.win 15).blk t).view.set := by
  have hi0 : (i 0).val < 10000 := (i 0).isLt
  have hi1 : (i 1).val < 128 := (i 1).isLt
  obtain ⟨t, ht⟩ : ∃ t : Fin cfg1.N, t.val = (i 0).val / 2000 :=
    ⟨⟨(i 0).val / 2000, lt_of_lt_of_eq (by omega : (i 0).val / 2000 < 5) points1.symm⟩, rfl⟩
  refine ⟨t, flush1_15 t, ?_⟩
  rw [mem_blk_c]
  obtain ⟨-, -, -, -, -, -, -, ⟨e0, e1⟩⟩ := rows_index t
  intro a
  match a with
  | ⟨0, _⟩ => show win1_15.index t (0 : Fin 2) * 2000 ≤ (i 0).val ∧ (i 0).val < win1_15.index t (0 : Fin 2) * 2000 + 2000; omega
  | ⟨1, _⟩ => show win1_15.index t (1 : Fin 2) * 128 ≤ (i 1).val ∧ (i 1).val < win1_15.index t (1 : Fin 2) * 128 + 128; omega

/-- An index of the array is in point t's block iff each coordinate is in the block's range on its axis. -/
theorem mem_blk_h (t : Fin cfg1.N) (i : S10000x128.Idx) :
    i ∈ ((cfg1.win 14).blk t).view.set ↔ ∀ a : Fin 2, win1_14.index t a * S2000x128.size a ≤ (i a).val ∧ (i a).val < win1_14.index t a * S2000x128.size a + S2000x128.size a := by
  show i ∈ ((View.whole main_v21_1).slice (win1_14.rect t)).set ↔ _
  rw [View.set_slice_whole, Rect.mem_set_unit]
  exact Iff.rfl

/-- Row r lies in the block of point r / 2000: the 5 blocks cover the 10000 rows. -/
theorem cover_h (i : S10000x128.Idx) :
    ∃ t : Fin cfg1.N, (cfg1.win 14).flush t = true ∧ i ∈ ((cfg1.win 14).blk t).view.set := by
  have hi0 : (i 0).val < 10000 := (i 0).isLt
  have hi1 : (i 1).val < 128 := (i 1).isLt
  obtain ⟨t, ht⟩ : ∃ t : Fin cfg1.N, t.val = (i 0).val / 2000 :=
    ⟨⟨(i 0).val / 2000, lt_of_lt_of_eq (by omega : (i 0).val / 2000 < 5) points1.symm⟩, rfl⟩
  refine ⟨t, flush1_14 t, ?_⟩
  rw [mem_blk_h]
  obtain ⟨-, -, -, -, -, -, ⟨e0, e1⟩, -⟩ := rows_index t
  intro a
  match a with
  | ⟨0, _⟩ => show win1_14.index t (0 : Fin 2) * 2000 ≤ (i 0).val ∧ (i 0).val < win1_14.index t (0 : Fin 2) * 2000 + 2000; omega
  | ⟨1, _⟩ => show win1_14.index t (1 : Fin 2) * 128 ≤ (i 1).val ∧ (i 1).val < win1_14.index t (1 : Fin 2) * 128 + 128; omega

/-- An index of the array is in point t's block iff each coordinate is in the block's range on its axis. -/
theorem mem_blk_out (t : Fin cfg1.N) (i : S10000x64.Idx) :
    i ∈ ((cfg1.win 13).blk t).view.set ↔ ∀ a : Fin 2, win1_13.index t a * S2000x64.size a ≤ (i a).val ∧ (i a).val < win1_13.index t a * S2000x64.size a + S2000x64.size a := by
  show i ∈ ((View.whole main_v21_0).slice (win1_13.rect t)).set ↔ _
  rw [View.set_slice_whole, Rect.mem_set_unit]
  exact Iff.rfl

/-- Row r lies in the block of point r / 2000: the 5 blocks cover the 10000 rows. -/
theorem cover_out (i : S10000x64.Idx) :
    ∃ t : Fin cfg1.N, (cfg1.win 13).flush t = true ∧ i ∈ ((cfg1.win 13).blk t).view.set := by
  have hi0 : (i 0).val < 10000 := (i 0).isLt
  have hi1 : (i 1).val < 64 := (i 1).isLt
  obtain ⟨t, ht⟩ : ∃ t : Fin cfg1.N, t.val = (i 0).val / 2000 :=
    ⟨⟨(i 0).val / 2000, lt_of_lt_of_eq (by omega : (i 0).val / 2000 < 5) points1.symm⟩, rfl⟩
  refine ⟨t, flush1_13 t, ?_⟩
  rw [mem_blk_out]
  obtain ⟨-, -, -, -, -, ⟨e0, e1⟩, -, -⟩ := rows_index t
  intro a
  match a with
  | ⟨0, _⟩ => show win1_13.index t (0 : Fin 2) * 2000 ≤ (i 0).val ∧ (i 0).val < win1_13.index t (0 : Fin 2) * 2000 + 2000; omega
  | ⟨1, _⟩ => show win1_13.index t (1 : Fin 2) * 64 ≤ (i 1).val ∧ (i 1).val < win1_13.index t (1 : Fin 2) * 64 + 64; omega

end Node

open Node

/-- The new cell state of every node. -/
theorem final1_c (c : Dev nD) :
    (dat1 (F := Ideal) V c).arrAt 15 cfg1.N = Cert.Spec.cArr (Cert.Spec.gatesArr (V c main_arg1) (V c main_arg0) (V c main_v18) (V c main_v19) (V c main_arg10) (V c main_arg11) (V c main_arg12) (V c main_arg13)) (V c main_v20) :=
  (dat1 (F := Ideal) V c).arrAt_eq_of_cover 15 _ (fun t _ => flushed_c V c t) cover_c

/-- The new hidden state of every node. -/
theorem final1_h (c : Dev nD) :
    (dat1 (F := Ideal) V c).arrAt 14 cfg1.N
      = Cert.Spec.hArr (Cert.Spec.gatesArr (V c main_arg1) (V c main_arg0) (V c main_v18) (V c main_v19) (V c main_arg10) (V c main_arg11) (V c main_arg12) (V c main_arg13)) (Cert.Spec.cArr (Cert.Spec.gatesArr (V c main_arg1) (V c main_arg0) (V c main_v18) (V c main_v19) (V c main_arg10) (V c main_arg11) (V c main_arg12) (V c main_arg13)) (V c main_v20)) :=
  (dat1 (F := Ideal) V c).arrAt_eq_of_cover 14 _ (fun t _ => flushed_h V c t) cover_h

/-- The output of every node. -/
theorem final1_out (c : Dev nD) :
    (dat1 (F := Ideal) V c).arrAt 13 cfg1.N
      = Cert.Spec.mlpArr (Cert.Spec.hArr (Cert.Spec.gatesArr (V c main_arg1) (V c main_arg0) (V c main_v18) (V c main_v19) (V c main_arg10) (V c main_arg11) (V c main_arg12) (V c main_arg13)) (Cert.Spec.cArr (Cert.Spec.gatesArr (V c main_arg1) (V c main_arg0) (V c main_v18) (V c main_v19) (V c main_arg10) (V c main_arg11) (V c main_arg12) (V c main_arg13)) (V c main_v20)))
          (V c main_arg14) (V c main_arg15) (V c main_arg16) (V c main_arg17) :=
  (dat1 (F := Ideal) V c).arrAt_eq_of_cover 13 _ (fun t _ => flushed_out V c t) cover_out

end Cert.KernelIdeal.Regions

end
-- ==== Proof.KernelValue.lean ====
/-
  The kernel's three results as functions of the launch contents. Reading the program from its end: the results are the
  node region's three arrays (the last two given a leading unit axis); the node region reads the node arrays, the weights,
  the two initial states without their unit axis, and the scatter-sum of the messages over the destination nodes; the
  messages are the edge region's array, which reads the weights and the concatenated rows gathered at the two endpoints.
  Each region's array is the row function of its inputs; each host stretch is read operation by operation.
-/
import proofs.«147792_j55439437856890_1_alg».proof.Proof.RunAll
import proofs.«147792_j55439437856890_1_alg».proof.Proof.Region0
import proofs.«147792_j55439437856890_1_alg».proof.Proof.Region1
import Idealize.ShloMosaic.Lib.StableHlo.Run

set_option maxRecDepth 16384

noncomputable section

namespace Cert.KernelIdeal.Full

open Cert.KernelIdeal Cert.KernelIdeal.Gen Cert.KernelIdeal.Regions
open Idealize.ShloMosaic Idealize.ShloMosaic.TcCoe Idealize.ShloMosaic.ValueIdx Idealize.ShloMosaic.StableHlo Idealize.SL.Sem

variable (m : (ℓ : Loc nD τ sig) → Buf (Elt Ideal) ℓ) (ρ : Dev nD → PrngReg)

/-! ## The results' terms -/

/-- Each edge's row: the hidden states gathered at its source and at its destination (a negative index counted from
    the end), side by side. -/
def edgeIn (c : Dev nD) : FVec Ideal S320000x256 .f32 :=
  concatenate S320000x256 1 [⟨S320000x128, Host.gather gather_S10000x128_S320000x1_S320000x128_1_0_n_n_0_1_1128 (m ((c : Thread nD τ).loc main_arg1)) (broadcastInDim S320000x1 ![0] bcast_S320000_S320000x1_0 (select (cmpi .slt (m ((c : Thread nD τ).loc main_arg4)) (broadcastInDim S320000 ![] bcast_S_S320000 (constantI S_ 32 0#32))) (addi (m ((c : Thread nD τ).loc main_arg4)) (broadcastInDim S320000 ![] bcast_S_S320000 (constantI S_ 32 10000#32))) (m ((c : Thread nD τ).loc main_arg4))))⟩, ⟨S320000x128, Host.gather gather_S10000x128_S320000x1_S320000x128_1_0_n_n_0_1_1128 (m ((c : Thread nD τ).loc main_arg1)) (broadcastInDim S320000x1 ![0] bcast_S320000_S320000x1_0 (select (cmpi .slt (m ((c : Thread nD τ).loc main_arg5)) (broadcastInDim S320000 ![] bcast_S_S320000 (constantI S_ 32 0#32))) (addi (m ((c : Thread nD τ).loc main_arg5)) (broadcastInDim S320000 ![] bcast_S_S320000 (constantI S_ 32 10000#32))) (m ((c : Thread nD τ).loc main_arg5))))⟩] concatenates_S320000x128_S320000x128_S320000x256_d1

/-- The messages summed over each destination node. -/
def sumMsg (c : Dev nD) : FVec Ideal S10000x128 .f32 :=
  Host.scatterAdd scatter_S10000x128_S320000x1_S320000x128_1_0_0_1 (broadcastInDim S10000x128 ![] bcast_S_S10000x128 (constant S_ .f32 0x00000000#32))
    (broadcastInDim S320000x1 ![0] bcast_S320000_S320000x1_0 (m ((c : Thread nD τ).loc main_arg5)))
    (Cert.Spec.mlpArr (edgeIn m c) (m ((c : Thread nD τ).loc main_arg6)) (m ((c : Thread nD τ).loc main_arg7)) (m ((c : Thread nD τ).loc main_arg8)) (m ((c : Thread nD τ).loc main_arg9)))

/-- The gates' pre-activations of every node. -/
def gatesK (c : Dev nD) : FVec Ideal (Cert.LibDenseRows.Sh2 10000 512) .f32 :=
  Cert.Spec.gatesArr (m ((c : Thread nD τ).loc main_arg1)) (m ((c : Thread nD τ).loc main_arg0)) (sumMsg m c) (shapeCast S10000x128 (m ((c : Thread nD τ).loc main_arg2)) shapeCasts_S1x10000x128_S10000x128)
    (m ((c : Thread nD τ).loc main_arg10)) (m ((c : Thread nD τ).loc main_arg11)) (m ((c : Thread nD τ).loc main_arg12)) (m ((c : Thread nD τ).loc main_arg13))

/-- The new cell state of every node. -/
def cellK (c : Dev nD) : FVec Ideal S10000x128 .f32 :=
  Cert.Spec.cArr (gatesK m c) (shapeCast S10000x128 (m ((c : Thread nD τ).loc main_arg3)) shapeCasts_S1x10000x128_S10000x128)

/-- The new hidden state of every node. -/
def hidK (c : Dev nD) : FVec Ideal S10000x128 .f32 := Cert.Spec.hArr (gatesK m c) (cellK m c)

/-- The output of every node. -/
def outK (c : Dev nD) : FVec Ideal S10000x64 .f32 :=
  Cert.Spec.mlpArr (hidK m c) (m ((c : Thread nD τ).loc main_arg14)) (m ((c : Thread nD τ).loc main_arg15)) (m ((c : Thread nD τ).loc main_arg16)) (m ((c : Thread nD τ).loc main_arg17))

/-! ## The buffers at the edge region's entry -/

/-- A buffer the first host stretch does not write holds its launch contents at the edge region's entry. -/
local macro "read_entry0" : tactic => `(tactic| (
  show StableHlo.after hostOps0 (W0 _ _ _) (Proc.devRef .tc _) = _
  after_results
  try rfl))

set_option maxHeartbeats 4000000 in
theorem V1_v14 (c : Dev nD) : V1 m ρ c main_v14 = edgeIn m c := by
  show StableHlo.after hostOps0 (W0 m ρ c) (Proc.devRef .tc main_v14) = _
  after_results_simp
  rfl
theorem V1_arg6 (c : Dev nD) : V1 m ρ c main_arg6 = m ((c : Thread nD τ).loc main_arg6) := by read_entry0
theorem V1_arg7 (c : Dev nD) : V1 m ρ c main_arg7 = m ((c : Thread nD τ).loc main_arg7) := by read_entry0
theorem V1_arg8 (c : Dev nD) : V1 m ρ c main_arg8 = m ((c : Thread nD τ).loc main_arg8) := by read_entry0
theorem V1_arg9 (c : Dev nD) : V1 m ρ c main_arg9 = m ((c : Thread nD τ).loc main_arg9) := by read_entry0

/-- The message array after the edge region. -/
theorem W2_v15 (c : Dev nD) : W2 m ρ c (Proc.devRef .tc main_v15)
    = Cert.Spec.mlpArr (edgeIn m c) (m ((c : Thread nD τ).loc main_arg6)) (m ((c : Thread nD τ).loc main_arg7)) (m ((c : Thread nD τ).loc main_arg8)) (m ((c : Thread nD τ).loc main_arg9)) := by
  refine (W2_arr m ρ c 5).trans ((final0 (V1 m ρ) c).trans ?_)
  rw [V1_v14, V1_arg6, V1_arg7, V1_arg8, V1_arg9]

/-! ## The buffers at the node region's entry -/

/-- A buffer neither host stretch nor the edge region writes holds its launch contents after the edge region. -/
local macro "read_exit0" : tactic => `(tactic| (
  refine (W2_of_ne _ _ _ _ (by decide)).trans ?_
  show StableHlo.after hostOps0 (W0 _ _ _) (Proc.devRef .tc _) = _
  after_results
  try rfl))

theorem W2_arg5 (c : Dev nD) : W2 m ρ c (Proc.devRef .tc main_arg5) = m ((c : Thread nD τ).loc main_arg5) := by read_exit0
theorem W2_arg2 (c : Dev nD) : W2 m ρ c (Proc.devRef .tc main_arg2) = m ((c : Thread nD τ).loc main_arg2) := by read_exit0
theorem W2_arg3 (c : Dev nD) : W2 m ρ c (Proc.devRef .tc main_arg3) = m ((c : Thread nD τ).loc main_arg3) := by read_exit0

/-- The same through the second host stretch. -/
local macro "read_entry1" : tactic => `(tactic| (
  show StableHlo.after hostOps1 (W2 _ _ _) (Proc.devRef .tc _) = _
  after_results
  refine (W2_of_ne _ _ _ _ (by decide)).trans ?_
  show StableHlo.after hostOps0 (W0 _ _ _) (Proc.devRef .tc _) = _
  after_results
  try rfl))

theorem V3_arg0 (c : Dev nD) : V3 m ρ c main_arg0 = m ((c : Thread nD τ).loc main_arg0) := by read_entry1
theorem V3_arg1 (c : Dev nD) : V3 m ρ c main_arg1 = m ((c : Thread nD τ).loc main_arg1) := by read_entry1
theorem V3_arg10 (c : Dev nD) : V3 m ρ c main_arg10 = m ((c : Thread nD τ).loc main_arg10) := by read_entry1
theorem V3_arg11 (c : Dev nD) : V3 m ρ c main_arg11 = m ((c : Thread nD τ).loc main_arg11) := by read_entry1
theorem V3_arg12 (c : Dev nD) : V3 m ρ c main_arg12 = m ((c : Thread nD τ).loc main_arg12) := by read_entry1
theorem V3_arg13 (c : Dev nD) : V3 m ρ c main_arg13 = m ((c : Thread nD τ).loc main_arg13) := by read_entry1
theorem V3_arg14 (c : Dev nD) : V3 m ρ c main_arg14 = m ((c : Thread nD τ).loc main_arg14) := by read_entry1
theorem V3_arg15 (c : Dev nD) : V3 m ρ c main_arg15 = m ((c : Thread nD τ).loc main_arg15) := by read_entry1
theorem V3_arg16 (c : Dev nD) : V3 m ρ c main_arg16 = m ((c : Thread nD τ).loc main_arg16) := by read_entry1
theorem V3_arg17 (c : Dev nD) : V3 m ρ c main_arg17 = m ((c : Thread nD τ).loc main_arg17) := by read_entry1

theorem V3_v18 (c : Dev nD) : V3 m ρ c main_v18 = sumMsg m c := by
  show StableHlo.after hostOps1 (W2 m ρ c) (Proc.devRef .tc main_v18) = _
  after_results
  rw [W2_arg5, W2_v15]
  rfl
theorem V3_v19 (c : Dev nD) : V3 m ρ c main_v19 = shapeCast S10000x128 (m ((c : Thread nD τ).loc main_arg2)) shapeCasts_S1x10000x128_S10000x128 := by
  show StableHlo.after hostOps1 (W2 m ρ c) (Proc.devRef .tc main_v19) = _
  after_results
  rw [W2_arg2]
  rfl
theorem V3_v20 (c : Dev nD) : V3 m ρ c main_v20 = shapeCast S10000x128 (m ((c : Thread nD τ).loc main_arg3)) shapeCasts_S1x10000x128_S10000x128 := by
  show StableHlo.after hostOps1 (W2 m ρ c) (Proc.devRef .tc main_v20) = _
  after_results
  rw [W2_arg3]
  rfl

/-! ## The node region's arrays, and the results -/

theorem W4_cell (c : Dev nD) : W4 m ρ c (Proc.devRef .tc main_v21_2) = cellK m c := by
  refine (W4_arr m ρ c 15).trans ((final1_c (V3 m ρ) c).trans ?_)
  rw [V3_arg0, V3_arg1, V3_arg10, V3_arg11, V3_arg12, V3_arg13, V3_v18, V3_v19, V3_v20]
  rfl
theorem W4_hid (c : Dev nD) : W4 m ρ c (Proc.devRef .tc main_v21_1) = hidK m c := by
  refine (W4_arr m ρ c 14).trans ((final1_h (V3 m ρ) c).trans ?_)
  rw [V3_arg0, V3_arg1, V3_arg10, V3_arg11, V3_arg12, V3_arg13, V3_v18, V3_v19, V3_v20]
  rfl
theorem W4_out (c : Dev nD) : W4 m ρ c (Proc.devRef .tc main_v21_0) = outK m c := by
  refine (W4_arr m ρ c 13).trans ((final1_out (V3 m ρ) c).trans ?_)
  rw [V3_arg0, V3_arg1, V3_arg10, V3_arg11, V3_arg12, V3_arg13, V3_arg14, V3_arg15, V3_arg16, V3_arg17, V3_v18, V3_v19, V3_v20]
  rfl

theorem res_out (c : Dev nD) : W5 m ρ c (Proc.devRef .tc main_v21_0) = outK m c := by
  show StableHlo.after hostOps2 (W4 m ρ c) (Proc.devRef .tc main_v21_0) = _
  after_results
  exact W4_out m ρ c
theorem res_hid (c : Dev nD) : W5 m ρ c (Proc.devRef .tc main_v22)
    = broadcastInDim S1x10000x128 ![1, 2] bcast_S10000x128_S1x10000x128_1_2 (hidK m c) := by
  show StableHlo.after hostOps2 (W4 m ρ c) (Proc.devRef .tc main_v22) = _
  after_results
  rw [W4_hid]
theorem res_cell (c : Dev nD) : W5 m ρ c (Proc.devRef .tc main_v23)
    = broadcastInDim S1x10000x128 ![1, 2] bcast_S10000x128_S1x10000x128_1_2 (cellK m c) := by
  show StableHlo.after hostOps2 (W4 m ρ c) (Proc.devRef .tc main_v23) = _
  after_results
  rw [W4_cell]

/-! ## The run -/

/-- Every weakly fair execution of the kernel's program terminates with its three results at these functions of the
    launch contents and its arguments unchanged. -/
theorem run : θ_run defs (onTc (τ := τ) (main (F := Ideal))) ⟨m, fun _ => 0, ρ⟩ (fun r => ∀ c : Dev nD,
      r.2.mem ((c.tc : Thread nD τ).loc main_v21_0) = outK m c
      ∧ r.2.mem ((c.tc : Thread nD τ).loc main_v22) = broadcastInDim S1x10000x128 ![1, 2] bcast_S10000x128_S1x10000x128_1_2 (hidK m c)
      ∧ r.2.mem ((c.tc : Thread nD τ).loc main_v23) = broadcastInDim S1x10000x128 ![1, 2] bcast_S10000x128_S1x10000x128_1_2 (cellK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
      ⟨(h c main_v21_0 (by decide)).trans (res_out m ρ c),
       (h c main_v22 (by decide)).trans (res_hid m ρ c),
       (h c main_v23 (by decide)).trans (res_cell m ρ c),
       (h c main_arg0 (by decide)).trans (W5_main_arg0 m ρ c),
       (h c main_arg1 (by decide)).trans (W5_main_arg1 m ρ c),
       (h c main_arg2 (by decide)).trans (W5_main_arg2 m ρ c),
       (h c main_arg3 (by decide)).trans (W5_main_arg3 m ρ c),
       (h c main_arg4 (by decide)).trans (W5_main_arg4 m ρ c),
       (h c main_arg5 (by decide)).trans (W5_main_arg5 m ρ c),
       (h c main_arg6 (by decide)).trans (W5_main_arg6 m ρ c),
       (h c main_arg7 (by decide)).trans (W5_main_arg7 m ρ c),
       (h c main_arg8 (by decide)).trans (W5_main_arg8 m ρ c),
       (h c main_arg9 (by decide)).trans (W5_main_arg9 m ρ c),
       (h c main_arg10 (by decide)).trans (W5_main_arg10 m ρ c),
       (h c main_arg11 (by decide)).trans (W5_main_arg11 m ρ c),
       (h c main_arg12 (by decide)).trans (W5_main_arg12 m ρ c),
       (h c main_arg13 (by decide)).trans (W5_main_arg13 m ρ c),
       (h c main_arg14 (by decide)).trans (W5_main_arg14 m ρ c),
       (h c main_arg15 (by decide)).trans (W5_main_arg15 m ρ c),
       (h c main_arg16 (by decide)).trans (W5_main_arg16 m ρ c),
       (h c main_arg17 (by decide)).trans (W5_main_arg17 m ρ c)⟩)
    (run_all m ρ)

end Cert.KernelIdeal.Full

end
-- ==== Proof.HSpellMlp.lean ====
/-
  The reference's dense parts, read row by row: a dot_general plus a bias broadcast in two steps, the maximum with a
  broadcast zero, and a second such layer are the two-layer perceptron of each row.
-/
import proofs.«147792_j55439437856890_1_alg».proof.Proof.Gen.ReferenceIdeal
import proofs.«147792_j55439437856890_1_alg».proof.Proof.Spec

noncomputable section

namespace Cert.ReferenceIdeal.Spell

open Cert.ReferenceIdeal Cert.ReferenceIdeal.Gen Idealize.ShloMosaic Idealize.ShloMosaic.ValueIdx

/-- The reference's message array is the perceptron of each edge row. -/
theorem mlp_edge (X : FVec Ideal S320000x256 .f32) (W1 : FVec Ideal S256x256 .f32) (b1 : FVec Ideal S256 .f32)
    (W2 : FVec Ideal S256x128 .f32) (b2 : FVec Ideal S128 .f32) :
    addf (Host.dotGeneral dot_S320000x256_S256x128_S320000x128_1_0_0_1_n_n none (maximumf (addf (Host.dotGeneral dot_S320000x256_S256x256_S320000x256_1_0_0_1_n_n none X W1) (broadcastInDim S320000x256 ![0, 1] bcast_S1x256_S320000x256_0_1 (broadcastInDim S1x256 ![1] bcast_S256_S1x256_1 b1))) (broadcastInDim S320000x256 ![] bcast_S_S320000x256 (constant S_ .f32 0x00000000#32))) W2) (broadcastInDim S320000x128 ![0, 1] bcast_S1x128_S320000x128_0_1 (broadcastInDim S1x128 ![1] bcast_S128_S1x128_1 b2))
      = Cert.Spec.mlpArr X W1 b1 W2 b2 := by
  funext j
  obtain ⟨p, q, rfl⟩ : ∃ (p : Fin 320000) (q : Fin 128), j = ix2 p q := ⟨j 0, j 1, eq_ix2 j⟩
  -- Row p of the message array is the perceptron of row p of the edge rows.
  have row : (fun n : Fin 128 =>
        Cert.LibDenseRows.hDense (R := 320000) (K := 256) (N := 128)
          (Cert.LibDenseRows.hRelu (Cert.LibDenseRows.hDense (R := 320000) (K := 256) (N := 256)
            X W1 b1 bcast_S256_S1x256_1 bcast_S1x256_S320000x256_0_1) bcast_S_S320000x256)
          W2 b2 bcast_S128_S1x128_1 bcast_S1x128_S320000x128_0_1 (ix2 p n))
      = Cert.Spec.mlpRow (fun k => X (ix2 p k)) (fun k n => W1 (ix2 k n)) (fun n => b1 (ix1 n))
          (fun k n => W2 (ix2 k n)) (fun n => b2 (ix1 n)) := by
    rw [Cert.LibDenseRows.hDense_row, Cert.LibDenseRows.hRelu_row, Cert.LibDenseRows.hDense_row]
    rfl
  exact congrFun row q

/-- The reference's output array is the perceptron of each node's new hidden row. -/
theorem mlp_out (H : FVec Ideal S10000x128 .f32) (W1 : FVec Ideal S128x128 .f32) (b1 : FVec Ideal S128 .f32)
    (W2 : FVec Ideal S128x64 .f32) (b2 : FVec Ideal S64 .f32) :
    addf (Host.dotGeneral dot_S10000x128_S128x64_S10000x64_1_0_0_1_n_n none (maximumf (addf (Host.dotGeneral dot_S10000x128_S128x128_S10000x128_1_0_0_1_n_n none H W1) (broadcastInDim S10000x128 ![0, 1] bcast_S1x128_S10000x128_0_1 (broadcastInDim S1x128 ![1] bcast_S128_S1x128_1 b1))) (broadcastInDim S10000x128 ![] bcast_S_S10000x128 (constant S_ .f32 0x00000000#32))) W2) (broadcastInDim S10000x64 ![0, 1] bcast_S1x64_S10000x64_0_1 (broadcastInDim S1x64 ![1] bcast_S64_S1x64_1 b2))
      = Cert.Spec.mlpArr H W1 b1 W2 b2 := by
  funext j
  obtain ⟨p, q, rfl⟩ : ∃ (p : Fin 10000) (q : Fin 64), j = ix2 p q := ⟨j 0, j 1, eq_ix2 j⟩
  -- Row p of the output array is the perceptron of row p of the new hidden rows.
  have row : (fun n : Fin 64 =>
        Cert.LibDenseRows.hDense (R := 10000) (K := 128) (N := 64)
          (Cert.LibDenseRows.hRelu (Cert.LibDenseRows.hDense (R := 10000) (K := 128) (N := 128)
            H W1 b1 bcast_S128_S1x128_1 bcast_S1x128_S10000x128_0_1) bcast_S_S10000x128)
          W2 b2 bcast_S64_S1x64_1 bcast_S1x64_S10000x64_0_1 (ix2 p n))
      = Cert.Spec.mlpRow (fun k => H (ix2 p k)) (fun k n => W1 (ix2 k n)) (fun n => b1 (ix1 n))
          (fun k n => W2 (ix2 k n)) (fun n => b2 (ix1 n)) := by
    rw [Cert.LibDenseRows.hDense_row, Cert.LibDenseRows.hRelu_row, Cert.LibDenseRows.hDense_row]
    rfl
  exact congrFun row q

end Cert.ReferenceIdeal.Spell
-- ==== Proof.HSpellCell.lean ====
/-
  The reference's LSTM part, read row by row: its concatenation, two dot_generals and summed biases are the gates'
  pre-activations of each node; its negate, exponential, add and divide are the logistic function; its slices are the four gates.
-/
import proofs.«147792_j55439437856890_1_alg».proof.Proof.Gen.ReferenceIdeal
import proofs.«147792_j55439437856890_1_alg».proof.Proof.Spec
import proofs.«147792_j55439437856890_1_alg».proof.Proof.LibLstmRows

noncomputable section

namespace Cert.ReferenceIdeal.Spell

open Cert.ReferenceIdeal Cert.ReferenceIdeal.Gen Idealize.ShloMosaic Idealize.ShloMosaic.ValueIdx Cert.LibDenseRows Cert.LibLstmRows

theorem gates (HS X SM H0 : FVec Ideal S10000x128 .f32) (Wih : FVec Ideal S384x512 .f32) (Whh : FVec Ideal S128x512 .f32)
    (bih bhh : FVec Ideal S512 .f32) :
    addf (addf (Host.dotGeneral dot_S10000x384_S384x512_S10000x512_1_0_0_1_n_n none (concatenate S10000x384 1 [⟨S10000x128, HS⟩, ⟨S10000x128, X⟩, ⟨S10000x128, SM⟩] concatenates_S10000x128_S10000x128_S10000x128_S10000x384_d1) Wih) (Host.dotGeneral dot_S10000x128_S128x512_S10000x512_1_0_0_1_n_n none H0 Whh)) (broadcastInDim S10000x512 ![0, 1] bcast_S1x512_S10000x512_0_1 (broadcastInDim S1x512 ![1] bcast_S512_S1x512_1 (addf bih bhh)))
      = Cert.Spec.gatesArr HS X SM H0 Wih Whh bih bhh := by
  funext i
  obtain ⟨r, q, rfl⟩ : ∃ (r : Fin 10000) (q : Fin 512), i = ix2 r q := ⟨i 0, i 1, eq_ix2 i⟩
  exact hGates_apply (R := 10000) HS X SM H0 Wih Whh bih bhh concatenates_S10000x128_S10000x128_S10000x128_S10000x384_d1
    bcast_S512_S1x512_1 bcast_S1x512_S10000x512_0_1 r q

theorem cell (G : FVec Ideal S10000x512 .f32) (C0 : FVec Ideal S10000x128 .f32) :
    addf (mulf (Host.divf (broadcastInDim S10000x128 ![] bcast_S_S10000x128 (constant S_ .f32 0x3F800000#32)) (addf (broadcastInDim S10000x128 ![] bcast_S_S10000x128 (constant S_ .f32 0x3F800000#32)) (Host.exp (Host.negf (extractStridedSlice S10000x128 ![0, 128] G slices_S10000x512_S10000x128_0_128))))) C0) (mulf (Host.divf (broadcastInDim S10000x128 ![] bcast_S_S10000x128 (constant S_ .f32 0x3F800000#32)) (addf (broadcastInDim S10000x128 ![] bcast_S_S10000x128 (constant S_ .f32 0x3F800000#32)) (Host.exp (Host.negf (extractStridedSlice S10000x128 ![0, 0] G slices_S10000x512_S10000x128_0_0))))) (Host.tanh (extractStridedSlice S10000x128 ![0, 256] G slices_S10000x512_S10000x128_0_256)))
      = Cert.Spec.cArr G C0 := by
  funext i
  obtain ⟨r, j, rfl⟩ : ∃ (r : Fin 10000) (j : Fin 128), i = ix2 r j := ⟨i 0, i 1, eq_ix2 i⟩
  exact hCell_apply (R := 10000) G C0 bcast_S_S10000x128 slices_S10000x512_S10000x128_0_0 slices_S10000x512_S10000x128_0_128
    slices_S10000x512_S10000x128_0_256 r j

theorem hidden (G : FVec Ideal S10000x512 .f32) (C : FVec Ideal S10000x128 .f32) :
    mulf (Host.divf (broadcastInDim S10000x128 ![] bcast_S_S10000x128 (constant S_ .f32 0x3F800000#32)) (addf (broadcastInDim S10000x128 ![] bcast_S_S10000x128 (constant S_ .f32 0x3F800000#32)) (Host.exp (Host.negf (extractStridedSlice S10000x128 ![0, 384] G slices_S10000x512_S10000x128_0_384))))) (Host.tanh C) = Cert.Spec.hArr G C := by
  funext i
  obtain ⟨r, j, rfl⟩ : ∃ (r : Fin 10000) (j : Fin 128), i = ix2 r j := ⟨i 0, i 1, eq_ix2 i⟩
  exact hHidden_apply (R := 10000) G C bcast_S_S10000x128 slices_S10000x512_S10000x128_0_384 r j

end Cert.ReferenceIdeal.Spell
-- ==== Proof.RefValue.lean ====
/-
  The reference's three results as functions of the launch contents: its composed terms, read from the inside out, are
  the perceptron of each edge's gathered rows, the scatter-sum over the destination nodes, the LSTM step of each node's rows
  and the output perceptron of each node's new hidden row.
-/
import proofs.«147792_j55439437856890_1_alg».proof.Proof.Gen.ReferenceIdeal.Run
import proofs.«147792_j55439437856890_1_alg».proof.Proof.HSpellMlp
import proofs.«147792_j55439437856890_1_alg».proof.Proof.HSpellCell

set_option maxRecDepth 16384

noncomputable section

namespace Cert.ReferenceIdeal.RefValue

open Cert.ReferenceIdeal Cert.ReferenceIdeal.Gen Cert.ReferenceIdeal.Value Cert.ReferenceIdeal.Spell
open Idealize.ShloMosaic Idealize.ShloMosaic.TcCoe Idealize.ShloMosaic.ValueIdx Idealize.SL.Sem

variable (m : (ℓ : Loc nD τ sig) → Buf (Elt Ideal) ℓ)

/-- Each edge's row: the hidden states gathered at its source and at its destination, side by side. -/
def edgeIn (c : Dev nD) : FVec Ideal S320000x256 .f32 :=
  concatenate S320000x256 1 [⟨S320000x128, Host.gather gather_S10000x128_S320000x1_S320000x128_1_0_n_n_0_1_1128 (m ((c.tc : Thread nD τ).loc main_arg1)) (broadcastInDim S320000x1 ![0] bcast_S320000_S320000x1_0 (select (cmpi .slt (m ((c.tc : Thread nD τ).loc main_arg4)) (broadcastInDim S320000 ![] bcast_S_S320000 (constantI S_ 32 0#32))) (addi (m ((c.tc : Thread nD τ).loc main_arg4)) (broadcastInDim S320000 ![] bcast_S_S320000 (constantI S_ 32 10000#32))) (m ((c.tc : Thread nD τ).loc main_arg4))))⟩, ⟨S320000x128, Host.gather gather_S10000x128_S320000x1_S320000x128_1_0_n_n_0_1_1128 (m ((c.tc : Thread nD τ).loc main_arg1)) (broadcastInDim S320000x1 ![0] bcast_S320000_S320000x1_0 (select (cmpi .slt (m ((c.tc : Thread nD τ).loc main_arg5)) (broadcastInDim S320000 ![] bcast_S_S320000 (constantI S_ 32 0#32))) (addi (m ((c.tc : Thread nD τ).loc main_arg5)) (broadcastInDim S320000 ![] bcast_S_S320000 (constantI S_ 32 10000#32))) (m ((c.tc : Thread nD τ).loc main_arg5))))⟩] concatenates_S320000x128_S320000x128_S320000x256_d1

/-- The messages summed over each destination node. -/
def sumMsg (c : Dev nD) : FVec Ideal S10000x128 .f32 :=
  Host.scatterAdd scatter_S10000x128_S320000x1_S320000x128_1_0_0_1 (broadcastInDim S10000x128 ![] bcast_S_S10000x128 (constant S_ .f32 0x00000000#32))
    (broadcastInDim S320000x1 ![0] bcast_S320000_S320000x1_0 (m ((c.tc : Thread nD τ).loc main_arg5)))
    (Cert.Spec.mlpArr (edgeIn m c) (m ((c.tc : Thread nD τ).loc main_arg6)) (m ((c.tc : Thread nD τ).loc main_arg7)) (m ((c.tc : Thread nD τ).loc main_arg8)) (m ((c.tc : Thread nD τ).loc main_arg9)))

/-- The gates' pre-activations of every node. -/
def gatesR (c : Dev nD) : FVec Ideal S10000x512 .f32 :=
  Cert.Spec.gatesArr (m ((c.tc : Thread nD τ).loc main_arg1)) (m ((c.tc : Thread nD τ).loc main_arg0)) (sumMsg m c) (shapeCast S10000x128 (m ((c.tc : Thread nD τ).loc main_arg2)) shapeCasts_S1x10000x128_S10000x128)
    (m ((c.tc : Thread nD τ).loc main_arg10)) (m ((c.tc : Thread nD τ).loc main_arg11)) (m ((c.tc : Thread nD τ).loc main_arg12)) (m ((c.tc : Thread nD τ).loc main_arg13))

/-- The new cell state of every node. -/
def cellR (c : Dev nD) : FVec Ideal S10000x128 .f32 :=
  Cert.Spec.cArr (gatesR m c) (shapeCast S10000x128 (m ((c.tc : Thread nD τ).loc main_arg3)) shapeCasts_S1x10000x128_S10000x128)

/-- The new hidden state of every node. -/
def hidR (c : Dev nD) : FVec Ideal S10000x128 .f32 := Cert.Spec.hArr (gatesR m c) (cellR m c)

/-- The output of every node. -/
def outR (c : Dev nD) : FVec Ideal S10000x64 .f32 :=
  Cert.Spec.mlpArr (hidR m c) (m ((c.tc : Thread nD τ).loc main_arg14)) (m ((c.tc : Thread nD τ).loc main_arg15)) (m ((c.tc : Thread nD τ).loc main_arg16)) (m ((c.tc : Thread nD τ).loc main_arg17))

theorem res_out (c : Dev nD) : res_out0 (F := Ideal) m c = outR m c := by
  unfold res_out0 res_main_v73
  rw [Spell.mlp_edge, Spell.gates, Spell.cell, Spell.hidden, Spell.mlp_out]
  rfl

theorem res_hid (c : Dev nD) : res_out1 (F := Ideal) m c
    = broadcastInDim S1x10000x128 ![1, 2] bcast_S10000x128_S1x10000x128_1_2 (hidR m c) := by
  unfold res_out1 res_main_v74
  rw [Spell.mlp_edge, Spell.gates, Spell.cell, Spell.hidden]
  rfl

theorem res_cell (c : Dev nD) : res_out2 (F := Ideal) m c
    = broadcastInDim S1x10000x128 ![1, 2] bcast_S10000x128_S1x10000x128_1_2 (cellR m c) := by
  unfold res_out2 res_main_v75
  rw [Spell.mlp_edge, Spell.gates, Spell.cell]
  rfl

end Cert.ReferenceIdeal.RefValue

end
-- ==== Proof.Bridge.lean ====
/-
  The reference's results and the kernel's are one function of the launch contents: where the two memories agree on the
  eighteen arguments, the gathered edge rows, the summed messages, the gates, the new cell and hidden states and the outputs
  of the two programs are the same terms, the two programs' shape and dimension records being equal lists.
-/
import proofs.«147792_j55439437856890_1_alg».proof.Proof.KernelValue
import proofs.«147792_j55439437856890_1_alg».proof.Proof.RefValue

set_option maxRecDepth 16384

noncomputable section

namespace Cert.Bridge

open Idealize.ShloMosaic Idealize.ShloMosaic.TcCoe Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

theorem edgeIn_eq (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.RefValue.edgeIn m' c = Cert.KernelIdeal.Full.edgeIn m c := by
  unfold Cert.ReferenceIdeal.RefValue.edgeIn Cert.KernelIdeal.Full.edgeIn
  rw [h1, h4, h5]
  rfl

theorem sumMsg_eq (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.RefValue.sumMsg m' c = Cert.KernelIdeal.Full.sumMsg m c := by
  unfold Cert.ReferenceIdeal.RefValue.sumMsg Cert.KernelIdeal.Full.sumMsg
  rw [edgeIn_eq m m' c h1 h4 h5, h5, h6, h7, h8, h9]
  rfl

theorem gates_eq (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    Cert.ReferenceIdeal.RefValue.gatesR m' c = Cert.KernelIdeal.Full.gatesK m c := by
  unfold Cert.ReferenceIdeal.RefValue.gatesR Cert.KernelIdeal.Full.gatesK
  rw [sumMsg_eq m m' c h1 h4 h5 h6 h7 h8 h9, h0, h1, h2, h10, h11, h12, h13]

theorem cell_eq (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    Cert.ReferenceIdeal.RefValue.cellR m' c = Cert.KernelIdeal.Full.cellK m c := by
  unfold Cert.ReferenceIdeal.RefValue.cellR Cert.KernelIdeal.Full.cellK
  rw [gates_eq m m' c h0 h1 h2 h4 h5 h6 h7 h8 h9 h10 h11 h12 h13, h3]

theorem hid_eq (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    Cert.ReferenceIdeal.RefValue.hidR m' c = Cert.KernelIdeal.Full.hidK m c := by
  unfold Cert.ReferenceIdeal.RefValue.hidR Cert.KernelIdeal.Full.hidK
  rw [gates_eq m m' c h0 h1 h2 h4 h5 h6 h7 h8 h9 h10 h11 h12 h13, cell_eq m m' c h0 h1 h2 h3 h4 h5 h6 h7 h8 h9 h10 h11 h12 h13]

theorem out_eq (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    Cert.ReferenceIdeal.RefValue.outR m' c = Cert.KernelIdeal.Full.outK m c := by
  unfold Cert.ReferenceIdeal.RefValue.outR Cert.KernelIdeal.Full.outK
  rw [hid_eq m m' c h0 h1 h2 h3 h4 h5 h6 h7 h8 h9 h10 h11 h12 h13, h14, h15, h16, h17]

end Cert.Bridge

end
-- ==== Proof.lean ====
/-
  The certificate's five claims. The three frames: the kernel's program at the word level and at the extended reals
  terminates without a fault and keeps its arguments (the generated frame), and so does the reference (its generated run).
  The idealization rewrote no operation, so it preserves the kernel trivially. The value claim: at the extended reals both
  programs end with the same three results — for every edge the two-layer perceptron of the hidden states gathered at its
  endpoints, these messages summed over each destination node, for every node the LSTM step
  gates = [h, x, Σmsg]·W_ih + h₀·W_hh + b_ih + b_hh, c = σ(f)·c₀ + σ(i)·tanh(g), h' = σ(o)·tanh(c), and the output perceptron
  of h'. The kernel computes the perceptrons and the LSTM step block by block of rows and the reference on all rows at once;
  every entry depends on its own row only, a block product into a zero accumulator and a dot_general are the same sum over
  the contracted coordinate, a change of float format is the identity, tpu.logistic is 1 / (1 + e⁻ˣ) by definition, and the
  two bias rows added one after the other or summed first differ by the associativity of addition on the extended reals.
  The gather and the scatter-sum are the same host operations in both programs.
-/
import proofs.«147792_j55439437856890_1_alg».proof.Defs
import proofs.«147792_j55439437856890_1_alg».proof.Proof.Gen.Kernel
import proofs.«147792_j55439437856890_1_alg».proof.Proof.Gen.Kernel.Frame
import proofs.«147792_j55439437856890_1_alg».proof.Proof.Gen.KernelIdeal
import proofs.«147792_j55439437856890_1_alg».proof.Proof.Gen.KernelIdeal.Frame
import proofs.«147792_j55439437856890_1_alg».proof.Proof.Gen.ReferenceIdeal
import proofs.«147792_j55439437856890_1_alg».proof.Proof.Gen.ReferenceIdeal.Run
import proofs.«147792_j55439437856890_1_alg».proof.Proof.Gen.Pre_finite_inputs
import proofs.«147792_j55439437856890_1_alg».proof.Proof.KernelValue
import proofs.«147792_j55439437856890_1_alg».proof.Proof.RefValue
import proofs.«147792_j55439437856890_1_alg».proof.Proof.Bridge
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its results dropped. -/
theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- Both programs end at the kernel's three result terms: the kernel by its run read through the two regions, the
    reference by its run read row by row, the two memories agreeing on the arguments. -/
theorem algebraic : Cert.algebraic_KernelIdeal_ReferenceIdeal := by
  intro m ρ m' ρ' _ hagree
  refine ⟨fun c => Cert.KernelIdeal.Full.outK m c, _, _, Cert.KernelIdeal.Full.run m ρ, ?_⟩
  refine (θ_run Cert.ReferenceIdeal.defs _ _).mono (fun _ h c => ?_) (Cert.ReferenceIdeal.Value.run (F := Ideal) m' ρ')
  obtain ⟨h0, h1, h2, h3, h4, h5, h6, h7, h8, h9, h10, h11, h12, h13, h14, h15, h16, h17⟩ := hagree c
  refine ⟨(h c).1.trans ?_, (h c).2.1.trans ?_, (h c).2.2.1.trans ?_, ?_⟩
  · exact (Cert.ReferenceIdeal.RefValue.res_out m' c).trans
      (Cert.Bridge.out_eq m m' c h0 h1 h2 h3 h4 h5 h6 h7 h8 h9 h10 h11 h12 h13 h14 h15 h16 h17)
  · refine (Cert.ReferenceIdeal.RefValue.res_hid m' c).trans ?_
    rw [Cert.Bridge.hid_eq m m' c h0 h1 h2 h3 h4 h5 h6 h7 h8 h9 h10 h11 h12 h13]
  · refine (Cert.ReferenceIdeal.RefValue.res_cell m' c).trans ?_
    rw [Cert.Bridge.cell_eq m m' c h0 h1 h2 h3 h4 h5 h6 h7 h8 h9 h10 h11 h12 h13]
  · exact (h c).2.2.2

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
